-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x8x128x128x128 : Shape := ⟨5, ![2, 8, 128, 128, 128]⟩
abbrev S2x1x128x128x128 : Shape := ⟨5, ![2, 1, 128, 128, 128]⟩
abbrev S_ : Shape := ⟨0, ![]⟩

class Facts : Prop where
  bcast_S_S2x8x128x128x128 : S_.BroadcastsInDim S2x8x128x128x128 (![] : Fin 0 → Fin S2x8x128x128x128.rank)
  reducesTo_S2x8x128x128x128_S_d0_1_2_3_4 : S2x8x128x128x128.ReducesTo [0, 1, 2, 3, 4] S_
  h_S_ : 0 < S_.numel
  bcast_S_S2x1x128x128x128 : S_.BroadcastsInDim S2x1x128x128x128 (![] : Fin 0 → Fin S2x1x128x128x128.rank)
  reducesTo_S2x1x128x128x128_S_d0_1_2_3_4 : S2x1x128x128x128.ReducesTo [0, 1, 2, 3, 4] S_

variable [Facts]

def fn {F : FTy → Type} [FloatOps F] (main_arg0 : FVec F S2x8x128x128x128 .f32) (main_arg1 : IVec S2x1x128x128x128 32) : IVec S_ 1 :=
  let main_v0 : FVec F S2x8x128x128x128 .f32 := Host.absf main_arg0
  let main_cst : FVec F S_ .f32 := constant S_ .f32 0x7F800000#32
  let main_v1 : FVec F S2x8x128x128x128 .f32 := broadcastInDim S2x8x128x128x128 ![] bcast_S_S2x8x128x128x128 main_cst
  let main_v2 : IVec S2x8x128x128x128 1 := cmpf .olt main_v0 main_v1
  let main_c : IVec S_ 1 := constantI S_ 1 1#1
  let main_v3 : IVec S_ 1 := (fun x v => Host.reduce IntOp.andi x v reducesTo_S2x8x128x128x128_S_d0_1_2_3_4 h_S_) main_v2 main_c
  let main_c_0 : IVec S_ 32 := constantI S_ 32 0#32
  let main_v4 : IVec S2x1x128x128x128 32 := broadcastInDim S2x1x128x128x128 ![] bcast_S_S2x1x128x128x128 main_c_0
  let main_v5 : IVec S2x1x128x128x128 1 := cmpi .sge main_arg1 main_v4
  let main_c_1 : IVec S_ 32 := constantI S_ 32 8#32
  let main_v6 : IVec S2x1x128x128x128 32 := broadcastInDim S2x1x128x128x128 ![] bcast_S_S2x1x128x128x128 main_c_1
  let main_v7 : IVec S2x1x128x128x128 1 := cmpi .slt main_arg1 main_v6
  let main_v8 : IVec S2x1x128x128x128 1 := andi main_v5 main_v7
  let main_c_2 : IVec S_ 1 := constantI S_ 1 1#1
  let main_v9 : IVec S_ 1 := (fun x v => Host.reduce IntOp.andi x v reducesTo_S2x1x128x128x128_S_d0_1_2_3_4 h_S_) main_v8 main_c_2
  let main_v10 : IVec S_ 1 := andi main_v3 main_v9
  main_v10
-- ==== Kernel.lean ====
abbrev S2x8x128x128x128 : Shape := ⟨5, ![2, 8, 128, 128, 128]⟩
abbrev S2x1x128x128x128 : Shape := ⟨5, ![2, 1, 128, 128, 128]⟩
abbrev S2x1x1 : Shape := ⟨3, ![2, 1, 1]⟩
abbrev S2x2x8 : Shape := ⟨3, ![2, 2, 8]⟩
abbrev S2x8x4x128x128 : Shape := ⟨5, ![2, 8, 4, 128, 128]⟩
abbrev S2x1x4x128x128 : Shape := ⟨5, ![2, 1, 4, 128, 128]⟩
abbrev S1x1x1 : Shape := ⟨3, ![1, 1, 1]⟩
abbrev S1x2x8 : Shape := ⟨3, ![1, 2, 8]⟩
abbrev S1x1 : Shape := ⟨2, ![1, 1]⟩
abbrev S2x8 : Shape := ⟨2, ![2, 8]⟩
abbrev S2x4x128x128 : Shape := ⟨4, ![2, 4, 128, 128]⟩
abbrev S8x4x128x128 : Shape := ⟨4, ![8, 4, 128, 128]⟩
abbrev S1x8x1x1x1 : Shape := ⟨5, ![1, 8, 1, 1, 1]⟩
abbrev S1x8x4x128x128 : Shape := ⟨5, ![1, 8, 4, 128, 128]⟩
abbrev S2x4x128 : Shape := ⟨3, ![2, 4, 128]⟩
abbrev S2x4x128x1 : Shape := ⟨4, ![2, 4, 128, 1]⟩
abbrev S2x4x1 : Shape := ⟨3, ![2, 4, 1]⟩
abbrev S2x4x1x1 : Shape := ⟨4, ![2, 4, 1, 1]⟩
abbrev S2x1x1x1 : Shape := ⟨4, ![2, 1, 1, 1]⟩
abbrev S1x1x1x1 : Shape := ⟨4, ![1, 1, 1, 1]⟩
abbrev S2x8x4x128 : Shape := ⟨4, ![2, 8, 4, 128]⟩
abbrev S2x8x4x128x1 : Shape := ⟨5, ![2, 8, 4, 128, 1]⟩
abbrev S2x8x4x1 : Shape := ⟨4, ![2, 8, 4, 1]⟩
abbrev S2x8x4x1x1 : Shape := ⟨5, ![2, 8, 4, 1, 1]⟩
abbrev S2x8x1x1 : Shape := ⟨4, ![2, 8, 1, 1]⟩
abbrev S2x8x1x1x1 : Shape := ⟨5, ![2, 8, 1, 1, 1]⟩
abbrev S_ : Shape := ⟨0, ![]⟩

abbrev nBuf : Space → Nat
  | .hbm => 40
  | .vmem => 16
  | .smem => 0
  | _ => 0

abbrev bufTy : (tb : Table) → Fin (tcTables nBuf tb) → BufTy
  | .hbm, ⟨0, _⟩ => ⟨S2x8x128x128x128, .f32⟩
  | .hbm, ⟨1, _⟩ => ⟨S2x1x128x128x128, .i32⟩
  | .hbm, ⟨2, _⟩ => ⟨S2x1x1, .f32⟩
  | .hbm, ⟨3, _⟩ => ⟨S2x2x8, .f32⟩
  | .hbm, ⟨4, _⟩ => ⟨S2x2x8, .f32⟩
  | .hbm, ⟨5, _⟩ => ⟨S2x2x8, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S2x8, .f32⟩
  | .hbm, ⟨13, _⟩ => ⟨S_, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S_, .f32⟩
  | .hbm, ⟨18, _⟩ => ⟨S2x8, .f32⟩
  | .hbm, ⟨19, _⟩ => ⟨S2x8, .f32⟩
  | .hbm, ⟨20, _⟩ => ⟨S_, .f32⟩
  | .hbm, ⟨21, _⟩ => ⟨S2x8, .f32⟩
  | .hbm, ⟨22, _⟩ => ⟨S2x8, .f32⟩
  | .hbm, ⟨23, _⟩ => ⟨S2x8, .f32⟩
  | .hbm, ⟨24, _⟩ => ⟨S_, .f32⟩
  | .hbm, ⟨25, _⟩ => ⟨S2x8, .f32⟩
  | .hbm, ⟨26, _⟩ => ⟨S2x8, .f32⟩
  | .hbm, ⟨27, _⟩ => ⟨S2x8, .f32⟩
  | .hbm, ⟨28, _⟩ => ⟨S_, .f32⟩
  | .hbm, ⟨29, _⟩ => ⟨S2x8, .f32⟩
  | .hbm, ⟨30, _⟩ => ⟨S2x8, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .local _ .vmem, ⟨0, _⟩ => ⟨S2x8x4x128x128, .f32⟩
  | .local _ .vmem, ⟨1, _⟩ => ⟨S2x8x4x128x128, .f32⟩
  | .local _ .vmem, ⟨2, _⟩ => ⟨S2x1x4x128x128, .i32⟩
  | .local _ .vmem, ⟨3, _⟩ => ⟨S2x1x4x128x128, .i32⟩
  | .local _ .vmem, ⟨4, _⟩ => ⟨S1x1x1, .f32⟩
  | .local _ .vmem, ⟨5, _⟩ => ⟨S1x1x1, .f32⟩
  | .local _ .vmem, ⟨6, _⟩ => ⟨S1x2x8, .f32⟩
  | .local _ .vmem, ⟨7, _⟩ => ⟨S1x2x8, .f32⟩
  | .local _ .vmem, ⟨8, _⟩ => ⟨S1x2x8, .f32⟩
  | .local _ .vmem, ⟨9, _⟩ => ⟨S1x2x8, .f32⟩
  | .local _ .vmem, ⟨10, _⟩ => ⟨S1x2x8, .f32⟩
  | .local _ .vmem, ⟨11, _⟩ => ⟨S1x2x8, .f32⟩
  | .local _ .vmem, ⟨12, _⟩ => ⟨S1x1, .f32⟩
  | .local _ .vmem, ⟨13, _⟩ => ⟨S2x8, .f32⟩
  | .local _ .vmem, ⟨14, _⟩ => ⟨S2x8, .f32⟩
  | .local _ .vmem, ⟨15, _⟩ => ⟨S2x8, .f32⟩
  | _, _ => ⟨S2x8x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_cst_2 : Ref sig .tc := ⟨.hbm, 13, rfl⟩
abbrev main_v5 : Ref sig .tc := ⟨.hbm, 14, rfl⟩
abbrev main_cst_3 : Ref sig .tc := ⟨.hbm, 15, rfl⟩
abbrev main_v6 : Ref sig .tc := ⟨.hbm, 16, rfl⟩
abbrev main_cst_4 : Ref sig .tc := ⟨.hbm, 17, rfl⟩
abbrev main_v7 : Ref sig .tc := ⟨.hbm, 18, rfl⟩
abbrev main_v8 : Ref sig .tc := ⟨.hbm, 19, rfl⟩
abbrev main_cst_5 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_6 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_7 : Ref sig .tc := ⟨.hbm, 28, rfl⟩
abbrev main_v15 : Ref sig .tc := ⟨.hbm, 29, rfl⟩
abbrev main_v16 : Ref sig .tc := ⟨.hbm, 30, rfl⟩
abbrev main_cst_8 : Ref sig .tc := ⟨.hbm, 31, rfl⟩
abbrev main_v17 : Ref sig .tc := ⟨.hbm, 32, rfl⟩
abbrev main_cst_9 : Ref sig .tc := ⟨.hbm, 33, rfl⟩
abbrev main_v18 : Ref sig .tc := ⟨.hbm, 34, rfl⟩
abbrev main_cst_10 : Ref sig .tc := ⟨.hbm, 35, rfl⟩
abbrev main_v19 : Ref sig .tc := ⟨.hbm, 36, rfl⟩
abbrev main_cst_11 : Ref sig .tc := ⟨.hbm, 37, rfl⟩
abbrev main_v20 : Ref sig .tc := ⟨.hbm, 38, rfl⟩
abbrev main_v21 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v72 : BitVec 1 := Scalar.cmpi .eq arg1 c15_i32
  let v73 : BitVec 32 := Scalar.extui v72
  let c0_i32_41 : BitVec 32 := 0#32
  let v74 : BitVec 1 := Scalar.cmpi .ne v73 c0_i32_41
  v74

def cc0_transform_0 (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v1.toNat, c0_i32_1.toNat, c0_i32_2.toNat]

def cc0_transform_1 (i : grid0.Coords) : Fin 5 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v1.toNat, c0_i32_1.toNat, c0_i32_2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x8x4x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x1x4x128x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S2x8_S2x8_0_0 : ∀ a, (![0, 0] : Fin 2 → Nat) a + S2x8.size a ≤ S2x8.size a
  h_S2x8 : 0 < S2x8.numel
  shapeCasts_S2x8_S2x8 : S2x8.ShapeCasts S2x8
  inb_S2x8x4x128x128_S2x8x4x128x128_0_0_0_0_0 : ∀ a, (![0, 0, 0, 0, 0] : Fin 5 → Nat) a + S2x8x4x128x128.size a ≤ S2x8x4x128x128.size a
  h_S2x8x4x128x128 : 0 < S2x8x4x128x128.numel
  inb_S2x1x4x128x128_S2x1x4x128x128_0_0_0_0_0 : ∀ a, (![0, 0, 0, 0, 0] : Fin 5 → Nat) a + S2x1x4x128x128.size a ≤ S2x1x4x128x128.size a
  h_S2x1x4x128x128 : 0 < S2x1x4x128x128.numel
  shapeCasts_S2x1x4x128x128_S2x4x128x128 : S2x1x4x128x128.ShapeCasts S2x4x128x128
  reduces_S2x8x4x128x128_S8x4x128x128 : S2x8x4x128x128.Reduces [0] S8x4x128x128
  iota_S1x8x1x1x1_d1_w32 : S1x8x1x1x1.Iotas .tc 32 [1]
  shapeCasts_S2x4x128x128_S2x1x4x128x128 : S2x4x128x128.ShapeCasts S2x1x4x128x128
  broadcasts_S2x1x4x128x128_S2x8x4x128x128 : S2x1x4x128x128.Broadcasts S2x8x4x128x128
  broadcasts_S1x8x1x1x1_S2x8x4x128x128 : S1x8x1x1x1.Broadcasts S2x8x4x128x128
  natLt_1_32 : 1 < 32
  shapeCasts_S8x4x128x128_S1x8x4x128x128 : S8x4x128x128.ShapeCasts S1x8x4x128x128
  broadcasts_S1x8x4x128x128_S2x8x4x128x128 : S1x8x4x128x128.Broadcasts S2x8x4x128x128
  reduces_S2x8x4x128x128_S2x4x128x128 : S2x8x4x128x128.Reduces [1] S2x4x128x128
  reduces_S2x4x128x128_S2x4x128 : S2x4x128x128.Reduces [3] S2x4x128
  shapeCasts_S2x4x128_S2x4x128x1 : S2x4x128.ShapeCasts S2x4x128x1
  reduces_S2x4x128x1_S2x4x1 : S2x4x128x1.Reduces [2] S2x4x1
  shapeCasts_S2x4x1_S2x4x1x1 : S2x4x1.ShapeCasts S2x4x1x1
  reduces_S2x4x1x1_S2x1x1 : S2x4x1x1.Reduces [1] S2x1x1
  shapeCasts_S2x1x1_S2x1x1x1 : S2x1x1.ShapeCasts S2x1x1x1
  reduces_S2x1x1x1_S1x1x1 : S2x1x1x1.Reduces [0] S1x1x1
  shapeCasts_S1x1x1_S1x1x1x1 : S1x1x1.ShapeCasts S1x1x1x1
  shapeCasts_S1x1x1x1_S1x1 : S1x1x1x1.ShapeCasts S1x1
  reduces_S2x8x4x128x128_S2x8x4x128 : S2x8x4x128x128.Reduces [4] S2x8x4x128
  shapeCasts_S2x8x4x128_S2x8x4x128x1 : S2x8x4x128.ShapeCasts S2x8x4x128x1
  reduces_S2x8x4x128x1_S2x8x4x1 : S2x8x4x128x1.Reduces [3] S2x8x4x1
  shapeCasts_S2x8x4x1_S2x8x4x1x1 : S2x8x4x1.ShapeCasts S2x8x4x1x1
  reduces_S2x8x4x1x1_S2x8x1x1 : S2x8x4x1x1.Reduces [2] S2x8x1x1
  shapeCasts_S2x8x1x1_S2x8x1x1x1 : S2x8x1x1.ShapeCasts S2x8x1x1x1
  shapeCasts_S2x8x1x1x1_S2x8 : S2x8x1x1x1.ShapeCasts S2x8
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  shapeCasts_S2x8_S1x2x8 : S2x8.ShapeCasts S1x2x8
  inb_S1x2x8_S1x2x8_0_0_0 : ∀ a, (![0, 0, 0] : Fin 3 → Nat) a + S1x2x8.size a ≤ S1x2x8.size a
  h_S1x2x8 : 0 < S1x2x8.numel
  reducesTo_S2x1x1_S_d0_1_2 : S2x1x1.ReducesTo [0, 1, 2] S_
  h_S_ : 0 < S_.numel
  reducesTo_S2x2x8_S2x8_d0 : S2x2x8.ReducesTo [0] S2x8
  bcast_S_S2x8 : S_.BroadcastsInDim S2x8 (![] : Fin 0 → Fin S2x8.rank)
  reducesTo_S2x8_S_d0_1 : S2x8.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8x4x128x128.size a ≤ S2x8x128x128x128.size a
  hwx0_0 : ∀ i : grid0.Coords, EltTy.bits .f32 = 32 ∨ (Rect.block (s := S2x8x128x128x128) S2x8x4x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1x4x128x128.size a ≤ S2x1x128x128x128.size a
  hwx0_1 : ∀ i : grid0.Coords, EltTy.bits .i32 = 32 ∨ (Rect.block (s := S2x1x128x128x128) S2x1x4x128x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2x8.size a ≤ S2x2x8.size a
  hwx0_3 : ∀ i : grid0.Coords, EltTy.bits .f32 = 32 ∨ (Rect.block (s := S2x2x8) S1x2x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x2x8.size a ≤ S2x2x8.size a
  hwx0_4 : ∀ i : grid0.Coords, EltTy.bits .f32 = 32 ∨ (Rect.block (s := S2x2x8) S1x2x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2x8.size a ≤ S2x2x8.size a
  hwx0_5 : ∀ i : grid0.Coords, EltTy.bits .f32 = 32 ∨ (Rect.block (s := S2x2x8) S1x2x8.size (cc0_transform_5 i) (hinb0_5 i)).WholeWords (EltTy.packing .f32)

variable [Facts₀]

abbrev win0_0 : Pipeline.Window sig grid0 :=
  Pipeline.Window.ofSpec (Memref.whole main_arg0) S2x8x4x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1x4x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x2x8.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S1x2x8.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x2x8.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun i => !(k0_cond2 i == 1#1) | 3 => fun i => !(k0_cond2 i == 1#1) | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S2x8x128x128x128 : Shape := ⟨5, ![2, 8, 128, 128, 128]⟩
abbrev S2x1x128x128x128 : Shape := ⟨5, ![2, 1, 128, 128, 128]⟩
abbrev S2x128x128x128 : Shape := ⟨4, ![2, 128, 128, 128]⟩
abbrev S_ : Shape := ⟨0, ![]⟩
abbrev S8x128x128x128 : Shape := ⟨4, ![8, 128, 128, 128]⟩
abbrev S1x8x128x128x128 : Shape := ⟨5, ![1, 8, 128, 128, 128]⟩
abbrev S2x1x128x128x128x1 : Shape := ⟨6, ![2, 1, 128, 128, 128, 1]⟩
abbrev S1 : Shape := ⟨1, ![1]⟩
abbrev S1x1x1x1x1x1 : Shape := ⟨6, ![1, 1, 1, 1, 1, 1]⟩
abbrev S8 : Shape := ⟨1, ![8]⟩
abbrev S1x8x1x1x1 : Shape := ⟨5, ![1, 8, 1, 1, 1]⟩
abbrev S2x8 : Shape := ⟨2, ![2, 8]⟩

abbrev nBuf : Space → Nat
  | .hbm => 79
  | .vmem => 0
  | .smem => 0
  | _ => 0

abbrev bufTy : (tb : Table) → Fin (tcTables nBuf tb) → BufTy
  | .hbm, ⟨0, _⟩ => ⟨S2x8x128x128x128, .f32⟩
  | .hbm, ⟨1, _⟩ => ⟨S2x1x128x128x128, .i32⟩
  | .hbm, ⟨2, _⟩ => ⟨S2x128x128x128, .i32⟩
  | .hbm, ⟨3, _⟩ => ⟨S_, .f32⟩
  | .hbm, ⟨4, _⟩ => ⟨S2x8x128x128x128, .f32⟩
  | .hbm, ⟨5, _⟩ => ⟨S2x8x128x128x128, .f32⟩
  | .hbm, ⟨6, _⟩ => ⟨S2x8x128x128x128, .f32⟩
  | .hbm, ⟨7, _⟩ => ⟨S_, .f32⟩
  | .hbm, ⟨8, _⟩ => ⟨S8x128x128x128, .f32⟩
  | .hbm, ⟨9, _⟩ => ⟨S1x8x128x128x128, .f32⟩
  | .hbm, ⟨10, _⟩ => ⟨S2x8x128x128x128, .f32⟩
  | .hbm, ⟨11, _⟩ => ⟨S2x1x128x128x128, .i32⟩
  | .hbm, ⟨12, _⟩ => ⟨S_, .i32⟩
  | .hbm, ⟨13, _⟩ => ⟨S2x1x128x128x128, .i32⟩
  | .hbm, ⟨14, _⟩ => ⟨S2x1x128x128x128, .i1⟩
  | .hbm, ⟨15, _⟩ => ⟨S_, .i32⟩
  | .hbm, ⟨16, _⟩ => ⟨S2x1x128x128x128, .i32⟩
  | .hbm, ⟨17, _⟩ => ⟨S2x1x128x128x128, .i32⟩
  | .hbm, ⟨18, _⟩ => ⟨S2x1x128x128x128, .i32⟩
  | .hbm, ⟨19, _⟩ => ⟨S2x1x128x128x128x1, .i32⟩
  | .hbm, ⟨20, _⟩ => ⟨S1, .i32⟩
  | .hbm, ⟨21, _⟩ => ⟨S_, .i32⟩
  | .hbm, ⟨22, _⟩ => ⟨S2x1x128x128x128x1, .i32⟩
  | .hbm, ⟨23, _⟩ => ⟨S2x1x128x128x128x1, .i1⟩
  | .hbm, ⟨24, _⟩ => ⟨S1x1x1x1x1x1, .i32⟩
  | .hbm, ⟨25, _⟩ => ⟨S2x1x128x128x128x1, .i32⟩
  | .hbm, ⟨26, _⟩ => ⟨S2x1x128x128x128x1, .i1⟩
  | .hbm, ⟨27, _⟩ => ⟨S2x1x128x128x128x1, .i1⟩
  | .hbm, ⟨28, _⟩ => ⟨S_, .i1⟩
  | .hbm, ⟨29, _⟩ => ⟨S2x1x128x128x128, .i1⟩
  | .hbm, ⟨30, _⟩ => ⟨S2x1x128x128x128, .f32⟩
  | .hbm, ⟨31, _⟩ => ⟨S_, .f32⟩
  | .hbm, ⟨32, _⟩ => ⟨S2x1x128x128x128, .f32⟩
  | .hbm, ⟨33, _⟩ => ⟨S2x1x128x128x128, .f32⟩
  | .hbm, ⟨34, _⟩ => ⟨S2x128x128x128, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S2x1x128x128x128, .i32⟩
  | .hbm, ⟨43, _⟩ => ⟨S8, .i32⟩
  | .hbm, ⟨44, _⟩ => ⟨S1x8x1x1x1, .i32⟩
  | .hbm, ⟨45, _⟩ => ⟨S2x8x128x128x128, .i32⟩
  | .hbm, ⟨46, _⟩ => ⟨S2x8x128x128x128, .i32⟩
  | .hbm, ⟨47, _⟩ => ⟨S2x8x128x128x128, .i1⟩
  | .hbm, ⟨48, _⟩ => ⟨S2x8x128x128x128, .f32⟩
  | .hbm, ⟨49, _⟩ => ⟨S2x8x128x128x128, .f32⟩
  | .hbm, ⟨50, _⟩ => ⟨S_, .f32⟩
  | .hbm, ⟨51, _⟩ => ⟨S2x8, .f32⟩
  | .hbm, ⟨52, _⟩ => ⟨S_, .f32⟩
  | .hbm, ⟨53, _⟩ => ⟨S2x8, .f32⟩
  | .hbm, ⟨54, _⟩ => ⟨S_, .f32⟩
  | .hbm, ⟨55, _⟩ => ⟨S2x8, .f32⟩
  | .hbm, ⟨56, _⟩ => ⟨S_, .f32⟩
  | .hbm, ⟨57, _⟩ => ⟨S2x8, .f32⟩
  | .hbm, ⟨58, _⟩ => ⟨S2x8, .f32⟩
  | .hbm, ⟨59, _⟩ => ⟨S_, .f32⟩
  | .hbm, ⟨60, _⟩ => ⟨S2x8, .f32⟩
  | .hbm, ⟨61, _⟩ => ⟨S2x8, .f32⟩
  | .hbm, ⟨62, _⟩ => ⟨S2x8, .f32⟩
  | .hbm, ⟨63, _⟩ => ⟨S_, .f32⟩
  | .hbm, ⟨64, _⟩ => ⟨S2x8, .f32⟩
  | .hbm, ⟨65, _⟩ => ⟨S2x8, .f32⟩
  | .hbm, ⟨66, _⟩ => ⟨S2x8, .f32⟩
  | .hbm, ⟨67, _⟩ => ⟨S_, .f32⟩
  | .hbm, ⟨68, _⟩ => ⟨S2x8, .f32⟩
  | .hbm, ⟨69, _⟩ => ⟨S2x8, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S2x8x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_cst : Ref sig .tc := ⟨.hbm, 31, rfl⟩
abbrev main_call0_v14 : Ref sig .tc := ⟨.hbm, 32, rfl⟩
abbrev main_v8 : Ref sig .tc := ⟨.hbm, 33, rfl⟩
abbrev main_v9 : Ref sig .tc := ⟨.hbm, 34, rfl⟩
abbrev main_cst_1 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_4 : Ref sig .tc := ⟨.hbm, 50, rfl⟩
abbrev main_v22 : Ref sig .tc := ⟨.hbm, 51, rfl⟩
abbrev main_cst_5 : Ref sig .tc := ⟨.hbm, 52, rfl⟩
abbrev main_v23 : Ref sig .tc := ⟨.hbm, 53, rfl⟩
abbrev main_cst_6 : Ref sig .tc := ⟨.hbm, 54, rfl⟩
abbrev main_v24 : Ref sig .tc := ⟨.hbm, 55, rfl⟩
abbrev main_cst_7 : Ref sig .tc := ⟨.hbm, 56, rfl⟩
abbrev main_v25 : Ref sig .tc := ⟨.hbm, 57, rfl⟩
abbrev main_v26 : Ref sig .tc := ⟨.hbm, 58, rfl⟩
abbrev main_cst_8 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_9 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_cst_10 : Ref sig .tc := ⟨.hbm, 67, rfl⟩
abbrev main_v33 : Ref sig .tc := ⟨.hbm, 68, rfl⟩
abbrev main_v34 : Ref sig .tc := ⟨.hbm, 69, rfl⟩
abbrev main_cst_11 : Ref sig .tc := ⟨.hbm, 70, rfl⟩
abbrev main_v35 : Ref sig .tc := ⟨.hbm, 71, rfl⟩
abbrev main_cst_12 : Ref sig .tc := ⟨.hbm, 72, rfl⟩
abbrev main_v36 : Ref sig .tc := ⟨.hbm, 73, rfl⟩
abbrev main_cst_13 : Ref sig .tc := ⟨.hbm, 74, rfl⟩
abbrev main_v37 : Ref sig .tc := ⟨.hbm, 75, rfl⟩
abbrev main_cst_14 : Ref sig .tc := ⟨.hbm, 76, rfl⟩
abbrev main_v38 : Ref sig .tc := ⟨.hbm, 77, rfl⟩
abbrev main_v39 : Ref sig .tc := ⟨.hbm, 78, rfl⟩

abbrev nD : Nat := 1
abbrev τ : Topo := Topo.v7x

variable {F : FTy → Type} [FloatOps F]

class Facts₀ : Prop where
  shapeCasts_S2x1x128x128x128_S2x128x128x128 : S2x1x128x128x128.ShapeCasts S2x128x128x128
  bcast_S_S2x8x128x128x128 : S_.BroadcastsInDim S2x8x128x128x128 (![] : Fin 0 → Fin S2x8x128x128x128.rank)
  reducesTo_S2x8x128x128x128_S8x128x128x128_d0 : S2x8x128x128x128.ReducesTo [0] S8x128x128x128
  h_S_ : 0 < S_.numel
  bcast_S8x128x128x128_S1x8x128x128x128_1_2_3_4 : S8x128x128x128.BroadcastsInDim S1x8x128x128x128 (![1, 2, 3, 4] : Fin 4 → Fin S1x8x128x128x128.rank)
  bcast_S1x8x128x128x128_S2x8x128x128x128_0_1_2_3_4 : S1x8x128x128x128.BroadcastsInDim S2x8x128x128x128 (![0, 1, 2, 3, 4] : Fin 5 → Fin S2x8x128x128x128.rank)
  bcast_S2x128x128x128_S2x1x128x128x128_0_2_3_4 : S2x128x128x128.BroadcastsInDim S2x1x128x128x128 (![0, 2, 3, 4] : Fin 4 → Fin S2x1x128x128x128.rank)
  bcast_S_S2x1x128x128x128 : S_.BroadcastsInDim S2x1x128x128x128 (![] : Fin 0 → Fin S2x1x128x128x128.rank)
  shapeCasts_S2x1x128x128x128_S2x1x128x128x128x1 : S2x1x128x128x128.ShapeCasts S2x1x128x128x128x1
  bcast_S_S2x1x128x128x128x1 : S_.BroadcastsInDim S2x1x128x128x128x1 (![] : Fin 0 → Fin S2x1x128x128x128x1.rank)
  bcast_S1_S1x1x1x1x1x1_5 : S1.BroadcastsInDim S1x1x1x1x1x1 (![5] : Fin 1 → Fin S1x1x1x1x1x1.rank)
  bcast_S1x1x1x1x1x1_S2x1x128x128x128x1_0_1_2_3_4_5 : S1x1x1x1x1x1.BroadcastsInDim S2x1x128x128x128x1 (![0, 1, 2, 3, 4, 5] : Fin 6 → Fin S2x1x128x128x128x1.rank)
  reducesTo_S2x1x128x128x128x1_S2x1x128x128x128_d5 : S2x1x128x128x128x1.ReducesTo [5] S2x1x128x128x128
  reducesTo_S2x128x128x128_S_d0_1_2_3 : S2x128x128x128.ReducesTo [0, 1, 2, 3] S_
  bcast_S8_S1x8x1x1x1_1 : S8.BroadcastsInDim S1x8x1x1x1 (![1] : Fin 1 → Fin S1x8x1x1x1.rank)
  bcast_S2x1x128x128x128_S2x8x128x128x128_0_1_2_3_4 : S2x1x128x128x128.BroadcastsInDim S2x8x128x128x128 (![0, 1, 2, 3, 4] : Fin 5 → Fin S2x8x128x128x128.rank)
  bcast_S1x8x1x1x1_S2x8x128x128x128_0_1_2_3_4 : S1x8x1x1x1.BroadcastsInDim S2x8x128x128x128 (![0, 1, 2, 3, 4] : Fin 5 → Fin S2x8x128x128x128.rank)
  reducesTo_S2x8x128x128x128_S2x8_d2_3_4 : S2x8x128x128x128.ReducesTo [2, 3, 4] S2x8
  bcast_S_S2x8 : S_.BroadcastsInDim S2x8 (![] : Fin 0 → Fin S2x8.rank)
  reducesTo_S2x8_S_d0_1 : S2x8.ReducesTo [0, 1] S_
  gather_S2x8x128x128x128_S2x1x128x128x128x1_S2x1x128x128x128_n_1_0234_0234_1_5_11111_wf : GatherDims.WF S2x8x128x128x128 S2x1x128x128x128x1 S2x1x128x128x128 [] [1] [0, 2, 3, 4] [1] [0, 2, 3, 4] 5 ![1, 1, 1, 1, 1]

variable [Facts₀]

def gather_S2x8x128x128x128_S2x1x128x128x128x1_S2x1x128x128x128_n_1_0234_0234_1_5_11111 : GatherDims S2x8x128x128x128 S2x1x128x128x128x1 S2x1x128x128x128 where
  offsetDims := []
  collapsedSliceDims := [1]
  operandBatchingDims := [0, 2, 3, 4]
  startIndicesBatchingDims := [0, 2, 3, 4]
  startIndexMap := [1]
  indexVectorDim := 5
  sliceSizes := ![1, 1, 1, 1, 1]
  wf := gather_S2x8x128x128x128_S2x1x128x128x128x1_S2x1x128x128x128_n_1_0234_0234_1_5_11111_wf

class Facts : Prop extends Facts₀ where

variable [Facts]
-- ==== Proof.TileCases.lean ====
/-
  The three kinds of tile, read as values.

  A shard's first tile (case A) resets the four running values and adds its shares; a middle tile (case B) and a shard's
  last tile (case C) add theirs to what the tile before left; the last tile also writes the four running values out.
  Each statement here says what one case leaves, as the body's arithmetic applied to the tile's blocks and the carried
  values.
-/
import proofs.«424769_j9423158247527_4_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]
variable (c : Dev nD) (i : grid0.Coords) (arg2 : Memref sig .tc .vmem S2x8x4x128x128 .f32) (harg2 : arg2.IsWhole) (arg3 : Memref sig .tc .vmem S2x1x4x128x128 .i32) (harg3 : arg3.IsWhole) (arg4 : Memref sig .tc .vmem S1x1x1 .f32) (harg4 : arg4.IsWhole) (arg5 : Memref sig .tc .vmem S1x2x8 .f32) (harg5 : arg5.IsWhole) (arg6 : Memref sig .tc .vmem S1x2x8 .f32) (harg6 : arg6.IsWhole) (arg7 : Memref sig .tc .vmem S1x2x8 .f32) (harg7 : arg7.IsWhole) (arg8 : Memref sig .tc .vmem S1x1 .f32) (harg8 : arg8.IsWhole) (arg9 : Memref sig .tc .vmem S2x8 .f32) (harg9 : arg9.IsWhole) (arg10 : Memref sig .tc .vmem S2x8 .f32) (harg10 : arg10.IsWhole) (arg11 : Memref sig .tc .vmem S2x8 .f32) (harg11 : arg11.IsWhole)

theorem hz2 : (![0, 0] : Fin 2 → Nat) = fun _ => 0 := funext fun a => by fin_cases a <;> rfl
theorem hz3 : (![0, 0, 0] : Fin 3 → Nat) = fun _ => 0 := funext fun a => by fin_cases a <;> rfl
theorem hz5 : (![0, 0, 0, 0, 0] : Fin 5 → Nat) = fun _ => 0 := funext fun a => by fin_cases a <;> rfl

/-! ## What each case leaves in the four carried running values

Case A (a shard's first tile) resets them to zero and adds the tile's shares; cases B and C add the shares to what the
tile before left. -/

theorem scratch0_first (hc0 : cond0_0 i) (hc1 : ¬cond0_1 i) (x0 : Vec F S2x8x4x128x128 .f32) (x1 : Vec F S2x1x4x128x128 .i32) :
    sout0_A_0 c i arg2 harg2 arg3 harg3 arg4 harg4 arg5 harg5 arg6 harg6 arg7 harg7 arg8 harg8 arg9 harg9 arg10 harg10 arg11 harg11 hc0 hc1 x0 x1 = k0_pay13 (k0_pay11 x0 x1) (k0_pay6 (F := F)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem scratch0_middle (hc0 : ¬cond0_0 i) (hc1 : ¬cond0_1 i) (x0 : Vec F S2x8x4x128x128 .f32) (x1 : Vec F S2x1x4x128x128 .i32) (xs0 : Vec F S1x1 .f32) (xs1 xs2 xs3 : Vec F S2x8 .f32) :
    sout0_B_0 c i arg2 harg2 arg3 harg3 arg4 harg4 arg5 harg5 arg6 harg6 arg7 harg7 arg8 harg8 arg9 harg9 arg10 harg10 arg11 harg11 hc0 hc1 x0 x1 xs0 xs1 xs2 xs3 = k0_pay13 (k0_pay11 x0 x1) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  sl_unfold_words
  rw [View.canon_unit_zero hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem scratch0_last (hc0 : ¬cond0_0 i) (hc1 : cond0_1 i) (x0 : Vec F S2x8x4x128x128 .f32) (x1 : Vec F S2x1x4x128x128 .i32) (xs0 : Vec F S1x1 .f32) (xs1 xs2 xs3 : Vec F S2x8 .f32) :
    sout0_C_0 c i arg2 harg2 arg3 harg3 arg4 harg4 arg5 harg5 arg6 harg6 arg7 harg7 arg8 harg8 arg9 harg9 arg10 harg10 arg11 harg11 hc0 hc1 x0 x1 xs0 xs1 xs2 xs3 = k0_pay13 (k0_pay11 x0 x1) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem scratch1_first (hc0 : cond0_0 i) (hc1 : ¬cond0_1 i) (x0 : Vec F S2x8x4x128x128 .f32) (x1 : Vec F S2x1x4x128x128 .i32) :
    sout0_A_1 c i arg2 harg2 arg3 harg3 arg4 harg4 arg5 harg5 arg6 harg6 arg7 harg7 arg8 harg8 arg9 harg9 arg10 harg10 arg11 harg11 hc0 hc1 x0 x1 = k0_pay14 (k0_pay12 x0 x1) (k0_pay7 (F := F)) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  rw [View.canon_cons_unit_zero (S := S2x8) hz2, View.readCov_unit_zero (S := S2x8) _ hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem scratch1_middle (hc0 : ¬cond0_0 i) (hc1 : ¬cond0_1 i) (x0 : Vec F S2x8x4x128x128 .f32) (x1 : Vec F S2x1x4x128x128 .i32) (xs0 : Vec F S1x1 .f32) (xs1 xs2 xs3 : Vec F S2x8 .f32) :
    sout0_B_1 c i arg2 harg2 arg3 harg3 arg4 harg4 arg5 harg5 arg6 harg6 arg7 harg7 arg8 harg8 arg9 harg9 arg10 harg10 arg11 harg11 hc0 hc1 x0 x1 xs0 xs1 xs2 xs3 = k0_pay14 (k0_pay12 x0 x1) xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  sl_unfold_words
  rw [View.canon_unit_zero hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem scratch1_last (hc0 : ¬cond0_0 i) (hc1 : cond0_1 i) (x0 : Vec F S2x8x4x128x128 .f32) (x1 : Vec F S2x1x4x128x128 .i32) (xs0 : Vec F S1x1 .f32) (xs1 xs2 xs3 : Vec F S2x8 .f32) :
    sout0_C_1 c i arg2 harg2 arg3 harg3 arg4 harg4 arg5 harg5 arg6 harg6 arg7 harg7 arg8 harg8 arg9 harg9 arg10 harg10 arg11 harg11 hc0 hc1 x0 x1 xs0 xs1 xs2 xs3 = k0_pay14 (k0_pay12 x0 x1) xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem scratch2_first (hc0 : cond0_0 i) (hc1 : ¬cond0_1 i) (x0 : Vec F S2x8x4x128x128 .f32) (x1 : Vec F S2x1x4x128x128 .i32) :
    sout0_A_2 c i arg2 harg2 arg3 harg3 arg4 harg4 arg5 harg5 arg6 harg6 arg7 harg7 arg8 harg8 arg9 harg9 arg10 harg10 arg11 harg11 hc0 hc1 x0 x1 = k0_pay15 (k0_pay10 x1) (k0_pay8 (F := F)) := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  rw [View.canon_cons_unit_zero (S := S2x8) hz2, View.readCov_unit_zero (S := S2x8) _ hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem scratch2_middle (hc0 : ¬cond0_0 i) (hc1 : ¬cond0_1 i) (x0 : Vec F S2x8x4x128x128 .f32) (x1 : Vec F S2x1x4x128x128 .i32) (xs0 : Vec F S1x1 .f32) (xs1 xs2 xs3 : Vec F S2x8 .f32) :
    sout0_B_2 c i arg2 harg2 arg3 harg3 arg4 harg4 arg5 harg5 arg6 harg6 arg7 harg7 arg8 harg8 arg9 harg9 arg10 harg10 arg11 harg11 hc0 hc1 x0 x1 xs0 xs1 xs2 xs3 = k0_pay15 (k0_pay10 x1) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  sl_unfold_words
  rw [View.canon_unit_zero hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem scratch2_last (hc0 : ¬cond0_0 i) (hc1 : cond0_1 i) (x0 : Vec F S2x8x4x128x128 .f32) (x1 : Vec F S2x1x4x128x128 .i32) (xs0 : Vec F S1x1 .f32) (xs1 xs2 xs3 : Vec F S2x8 .f32) :
    sout0_C_2 c i arg2 harg2 arg3 harg3 arg4 harg4 arg5 harg5 arg6 harg6 arg7 harg7 arg8 harg8 arg9 harg9 arg10 harg10 arg11 harg11 hc0 hc1 x0 x1 xs0 xs1 xs2 xs3 = k0_pay15 (k0_pay10 x1) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem scratch3_first (hc0 : cond0_0 i) (hc1 : ¬cond0_1 i) (x0 : Vec F S2x8x4x128x128 .f32) (x1 : Vec F S2x1x4x128x128 .i32) :
    sout0_A_3 c i arg2 harg2 arg3 harg3 arg4 harg4 arg5 harg5 arg6 harg6 arg7 harg7 arg8 harg8 arg9 harg9 arg10 harg10 arg11 harg11 hc0 hc1 x0 x1 = k0_pay1 (k0_pay16 x0 (k0_pay9 (F := F))) := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 hc0 hc1 x0 x1)]
  unfold kernelRun0_A
  dsimp only
  sl_unfold_words
  rw [View.canon_cons_unit_zero (S := S2x8) hz2, View.readCov_unit_zero (S := S2x8) _ hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem scratch3_middle (hc0 : ¬cond0_0 i) (hc1 : ¬cond0_1 i) (x0 : Vec F S2x8x4x128x128 .f32) (x1 : Vec F S2x1x4x128x128 .i32) (xs0 : Vec F S1x1 .f32) (xs1 xs2 xs3 : Vec F S2x8 .f32) :
    sout0_B_3 c i arg2 harg2 arg3 harg3 arg4 harg4 arg5 harg5 arg6 harg6 arg7 harg7 arg8 harg8 arg9 harg9 arg10 harg10 arg11 harg11 hc0 hc1 x0 x1 xs0 xs1 xs2 xs3 = k0_pay1 (k0_pay16 x0 xs3) := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_B
  dsimp only
  sl_unfold_words
  rw [View.canon_unit_zero hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem scratch3_last (hc0 : ¬cond0_0 i) (hc1 : cond0_1 i) (x0 : Vec F S2x8x4x128x128 .f32) (x1 : Vec F S2x1x4x128x128 .i32) (xs0 : Vec F S1x1 .f32) (xs1 xs2 xs3 : Vec F S2x8 .f32) :
    sout0_C_3 c i arg2 harg2 arg3 harg3 arg4 harg4 arg5 harg5 arg6 harg6 arg7 harg7 arg8 harg8 arg9 harg9 arg10 harg10 arg11 harg11 hc0 hc1 x0 x1 xs0 xs1 xs2 xs3 = k0_pay1 (k0_pay16 x0 xs3) := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

/-! ## What a shard's last tile writes out: the four running values, each with a leading unit axis -/

theorem out2_last (hc0 : ¬cond0_0 i) (hc1 : cond0_1 i) (x0 : Vec F S2x8x4x128x128 .f32) (x1 : Vec F S2x1x4x128x128 .i32) (xs0 : Vec F S1x1 .f32) (xs1 xs2 xs3 : Vec F S2x8 .f32) :
    out0_C_2 c i arg2 harg2 arg3 harg3 arg4 harg4 arg5 harg5 arg6 harg6 arg7 harg7 arg8 harg8 arg9 harg9 arg10 harg10 arg11 harg11 hc0 hc1 x0 x1 xs0 xs1 xs2 xs3 = k0_pay2 (k0_pay13 (k0_pay11 x0 x1) xs0) := by
  unfold out0_C_2
  rw [View.read_writes_eq_canon _ _ _ (cover0_C_2 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz3, View.readCov_unit_zero (S := S1x1) _ hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem out3_last (hc0 : ¬cond0_0 i) (hc1 : cond0_1 i) (x0 : Vec F S2x8x4x128x128 .f32) (x1 : Vec F S2x1x4x128x128 .i32) (xs0 : Vec F S1x1 .f32) (xs1 xs2 xs3 : Vec F S2x8 .f32) :
    out0_C_3 c i arg2 harg2 arg3 harg3 arg4 harg4 arg5 harg5 arg6 harg6 arg7 harg7 arg8 harg8 arg9 harg9 arg10 harg10 arg11 harg11 hc0 hc1 x0 x1 xs0 xs1 xs2 xs3 = k0_pay3 (k0_pay14 (k0_pay12 x0 x1) xs1) := by
  unfold out0_C_3
  rw [View.read_writes_eq_canon _ _ _ (cover0_C_3 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz3, View.readCov_unit_zero (S := S2x8) _ hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem out4_last (hc0 : ¬cond0_0 i) (hc1 : cond0_1 i) (x0 : Vec F S2x8x4x128x128 .f32) (x1 : Vec F S2x1x4x128x128 .i32) (xs0 : Vec F S1x1 .f32) (xs1 xs2 xs3 : Vec F S2x8 .f32) :
    out0_C_4 c i arg2 harg2 arg3 harg3 arg4 harg4 arg5 harg5 arg6 harg6 arg7 harg7 arg8 harg8 arg9 harg9 arg10 harg10 arg11 harg11 hc0 hc1 x0 x1 xs0 xs1 xs2 xs3 = k0_pay4 (k0_pay15 (k0_pay10 x1) xs2) := by
  unfold out0_C_4
  rw [View.read_writes_eq_canon _ _ _ (cover0_C_4 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz3, View.readCov_unit_zero (S := S2x8) _ hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

theorem out5_last (hc0 : ¬cond0_0 i) (hc1 : cond0_1 i) (x0 : Vec F S2x8x4x128x128 .f32) (x1 : Vec F S2x1x4x128x128 .i32) (xs0 : Vec F S1x1 .f32) (xs1 xs2 xs3 : Vec F S2x8 .f32) :
    out0_C_5 c i arg2 harg2 arg3 harg3 arg4 harg4 arg5 harg5 arg6 harg6 arg7 harg7 arg8 harg8 arg9 harg9 arg10 harg10 arg11 harg11 hc0 hc1 x0 x1 xs0 xs1 xs2 xs3 = k0_pay5 (k0_pay1 (k0_pay16 x0 xs3)) := by
  unfold out0_C_5
  rw [View.read_writes_eq_canon _ _ _ (cover0_C_5 c i arg2 harg2 arg3 harg3 arg4 harg4 arg5 harg5 arg6 harg6 arg7 harg7 arg8 harg8 arg9 harg9 arg10 harg10 arg11 harg11 hc0 hc1 x0 x1 xs0 xs1 xs2 xs3)]
  unfold kernelRun0_C
  dsimp only
  sl_unfold_words
  rw [View.canon_unit_zero hz3, View.readCov_unit_zero (S := S2x8) _ hz2]
  simp only [View.readAt_eq_ld, harg2.read_unread, harg3.read_unread, harg8.read_unread, harg9.read_unread, harg10.read_unread, harg11.read_unread,
    View.ld_unit_zero (S := S2x8x4x128x128) hz5, View.ld_unit_zero (S := S2x1x4x128x128) hz5, View.ld_unit_zero (S := S1x1) hz2, View.ld_unit_zero (S := S2x8) hz2]

end Cert.KernelIdeal.Pieces

end
-- ==== Proof.TileLayout.lean ====
/-
  The layout steps of one tile's arithmetic, read at coordinates.

  A tile is a block (b, c, r, w, d) ∈ 2 × 8 × 4 × 128 × 128 of the probabilities and (b, 0, r, w, d) of the labels. The
  body sums it one axis at a time, keeping the summed axis as a unit axis in between. Each lemma here reads ONE step at
  explicit coordinates: a sum over one axis as the sum over that coordinate, a reshape that only adds, drops or moves unit
  axes as the same entry, a broadcast along unit axes as the entry at coordinate 0 there.
-/
import proofs.«424769_j9423158247527_4_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Idealize.ShloMosaic Idealize.ShloMosaic.ValueIdx
open scoped BigOperators

variable {α : Type}

/-! ## Sums over one axis -/

section sums
variable (hφ : FKind.Formats FTy.f32) (hacc : (0x00000000#32 : BitVec 32) = 0x00000000#32)

/-- The batch axis of a tile summed: at (c, r, w, d) the sum over b. -/
theorem sum_batch (src : FVec Ideal S2x8x4x128x128 .f32) (h : S2x8x4x128x128.Reduces [0] S8x4x128x128)
    (c : Fin 8) (r : Fin 4) (w d : Fin 128) :
    multiReduction .add [0] S8x4x128x128 src 0x00000000#32 h hφ hacc (ix4 c r w d) = ∑ b : Fin 2, src (ix5 b c r w d) :=
  (Ideal.multiReduction_add_single src _ h hφ hacc (ix4 c r w d)).trans
    (Finset.sum_congr rfl fun b _ => congrArg src (funext fun a => match a with
      | ⟨0, _⟩ => rfl | ⟨1, _⟩ => rfl | ⟨2, _⟩ => rfl | ⟨3, _⟩ => rfl | ⟨4, _⟩ => rfl))

/-- The class axis summed: at (b, r, w, d) the sum over c. -/
theorem sum_class (src : FVec Ideal S2x8x4x128x128 .f32) (h : S2x8x4x128x128.Reduces [1] S2x4x128x128)
    (b : Fin 2) (r : Fin 4) (w d : Fin 128) :
    multiReduction .add [1] S2x4x128x128 src 0x00000000#32 h hφ hacc (ix4 b r w d) = ∑ c : Fin 8, src (ix5 b c r w d) :=
  (Ideal.multiReduction_add_single src _ h hφ hacc (ix4 b r w d)).trans
    (Finset.sum_congr rfl fun c _ => congrArg src (funext fun a => match a with
      | ⟨0, _⟩ => rfl | ⟨1, _⟩ => rfl | ⟨2, _⟩ => rfl | ⟨3, _⟩ => rfl | ⟨4, _⟩ => rfl))

/-- The last axis of a (b, r, w, d) array summed. -/
theorem sum_d4 (src : FVec Ideal S2x4x128x128 .f32) (h : S2x4x128x128.Reduces [3] S2x4x128)
    (b : Fin 2) (r : Fin 4) (w : Fin 128) :
    multiReduction .add [3] S2x4x128 src 0x00000000#32 h hφ hacc (ix3 b r w) = ∑ d : Fin 128, src (ix4 b r w d) :=
  (Ideal.multiReduction_add_single src _ h hφ hacc (ix3 b r w)).trans
    (Finset.sum_congr rfl fun d _ => congrArg src (funext fun a => match a with
      | ⟨0, _⟩ => rfl | ⟨1, _⟩ => rfl | ⟨2, _⟩ => rfl | ⟨3, _⟩ => rfl))

theorem sum_w4 (src : FVec Ideal S2x4x128x1 .f32) (h : S2x4x128x1.Reduces [2] S2x4x1)
    (b : Fin 2) (r : Fin 4) (u : Fin 1) :
    multiReduction .add [2] S2x4x1 src 0x00000000#32 h hφ hacc (ix3 b r u) = ∑ w : Fin 128, src (ix4 b r w u) :=
  (Ideal.multiReduction_add_single src _ h hφ hacc (ix3 b r u)).trans
    (Finset.sum_congr rfl fun w _ => congrArg src (funext fun a => match a with
      | ⟨0, _⟩ => rfl | ⟨1, _⟩ => rfl | ⟨2, _⟩ => rfl | ⟨3, _⟩ => rfl))

theorem sum_r4 (src : FVec Ideal S2x4x1x1 .f32) (h : S2x4x1x1.Reduces [1] S2x1x1)
    (b : Fin 2) (u u' : Fin 1) :
    multiReduction .add [1] S2x1x1 src 0x00000000#32 h hφ hacc (ix3 b u u') = ∑ r : Fin 4, src (ix4 b r u u') :=
  (Ideal.multiReduction_add_single src _ h hφ hacc (ix3 b u u')).trans
    (Finset.sum_congr rfl fun r _ => congrArg src (funext fun a => match a with
      | ⟨0, _⟩ => rfl | ⟨1, _⟩ => rfl | ⟨2, _⟩ => rfl | ⟨3, _⟩ => rfl))

theorem sum_b4 (src : FVec Ideal S2x1x1x1 .f32) (h : S2x1x1x1.Reduces [0] S1x1x1)
    (u u' u'' : Fin 1) :
    multiReduction .add [0] S1x1x1 src 0x00000000#32 h hφ hacc (ix3 u u' u'') = ∑ b : Fin 2, src (ix4 b u u' u'') :=
  (Ideal.multiReduction_add_single src _ h hφ hacc (ix3 u u' u'')).trans
    (Finset.sum_congr rfl fun b _ => congrArg src (funext fun a => match a with
      | ⟨0, _⟩ => rfl | ⟨1, _⟩ => rfl | ⟨2, _⟩ => rfl | ⟨3, _⟩ => rfl))

/-- The last axis of a tile summed: at (b, c, r, w) the sum over d. -/
theorem sum_d5 (src : FVec Ideal S2x8x4x128x128 .f32) (h : S2x8x4x128x128.Reduces [4] S2x8x4x128)
    (b : Fin 2) (c : Fin 8) (r : Fin 4) (w : Fin 128) :
    multiReduction .add [4] S2x8x4x128 src 0x00000000#32 h hφ hacc (ix4 b c r w) = ∑ d : Fin 128, src (ix5 b c r w d) :=
  (Ideal.multiReduction_add_single src _ h hφ hacc (ix4 b c r w)).trans
    (Finset.sum_congr rfl fun d _ => congrArg src (funext fun a => match a with
      | ⟨0, _⟩ => rfl | ⟨1, _⟩ => rfl | ⟨2, _⟩ => rfl | ⟨3, _⟩ => rfl | ⟨4, _⟩ => rfl))

theorem sum_w5 (src : FVec Ideal S2x8x4x128x1 .f32) (h : S2x8x4x128x1.Reduces [3] S2x8x4x1)
    (b : Fin 2) (c : Fin 8) (r : Fin 4) (u : Fin 1) :
    multiReduction .add [3] S2x8x4x1 src 0x00000000#32 h hφ hacc (ix4 b c r u) = ∑ w : Fin 128, src (ix5 b c r w u) :=
  (Ideal.multiReduction_add_single src _ h hφ hacc (ix4 b c r u)).trans
    (Finset.sum_congr rfl fun w _ => congrArg src (funext fun a => match a with
      | ⟨0, _⟩ => rfl | ⟨1, _⟩ => rfl | ⟨2, _⟩ => rfl | ⟨3, _⟩ => rfl | ⟨4, _⟩ => rfl))

theorem sum_r5 (src : FVec Ideal S2x8x4x1x1 .f32) (h : S2x8x4x1x1.Reduces [2] S2x8x1x1)
    (b : Fin 2) (c : Fin 8) (u u' : Fin 1) :
    multiReduction .add [2] S2x8x1x1 src 0x00000000#32 h hφ hacc (ix4 b c u u') = ∑ r : Fin 4, src (ix5 b c r u u') :=
  (Ideal.multiReduction_add_single src _ h hφ hacc (ix4 b c u u')).trans
    (Finset.sum_congr rfl fun r _ => congrArg src (funext fun a => match a with
      | ⟨0, _⟩ => rfl | ⟨1, _⟩ => rfl | ⟨2, _⟩ => rfl | ⟨3, _⟩ => rfl | ⟨4, _⟩ => rfl))

end sums

/-! ## Reshapes that add, drop or move unit axes -/

theorem cast_brw_u (x : S2x4x128.Idx → α) (h : S2x4x128.ShapeCasts S2x4x128x1) (b : Fin 2) (r : Fin 4) (w : Fin 128) (u : Fin 1) :
    shapeCast S2x4x128x1 x h (ix4 b r w u) = x (ix3 b r w) :=
  shapeCast_apply x h _ _ (by
    have hu := u.isLt
    rw [Shape.rowMajor_val_three, Shape.rowMajor_val_four]
    show (b.val * 4 + r.val) * 128 + w.val = ((b.val * 4 + r.val) * 128 + w.val) * 1 + u.val
    omega)

theorem cast_bru_u (x : S2x4x1.Idx → α) (h : S2x4x1.ShapeCasts S2x4x1x1) (b : Fin 2) (r : Fin 4) (u u' : Fin 1) :
    shapeCast S2x4x1x1 x h (ix4 b r u u') = x (ix3 b r u) :=
  shapeCast_apply x h _ _ (by
    have hu := u.isLt; have hu' := u'.isLt
    rw [Shape.rowMajor_val_three, Shape.rowMajor_val_four]
    show (b.val * 4 + r.val) * 1 + u.val = ((b.val * 4 + r.val) * 1 + u.val) * 1 + u'.val
    omega)

theorem cast_buu_u (x : S2x1x1.Idx → α) (h : S2x1x1.ShapeCasts S2x1x1x1) (b : Fin 2) (u u' u'' : Fin 1) :
    shapeCast S2x1x1x1 x h (ix4 b u u' u'') = x (ix3 b u u') :=
  shapeCast_apply x h _ _ (by
    have hu := u.isLt; have hu' := u'.isLt; have hu'' := u''.isLt
    rw [Shape.rowMajor_val_three, Shape.rowMajor_val_four]
    show (b.val * 1 + u.val) * 1 + u'.val = ((b.val * 1 + u.val) * 1 + u'.val) * 1 + u''.val
    omega)

theorem cast_uuu_u (x : S1x1x1.Idx → α) (h : S1x1x1.ShapeCasts S1x1x1x1) (u0 u1 u2 u3 : Fin 1) :
    shapeCast S1x1x1x1 x h (ix4 u0 u1 u2 u3) = x (ix3 u0 u1 u2) :=
  shapeCast_apply x h _ _ (by
    have := u0.isLt; have := u1.isLt; have := u2.isLt; have := u3.isLt
    rw [Shape.rowMajor_val_three, Shape.rowMajor_val_four]
    show (u0.val * 1 + u1.val) * 1 + u2.val = ((u0.val * 1 + u1.val) * 1 + u2.val) * 1 + u3.val
    omega)

theorem cast_uuuu_uu (x : S1x1x1x1.Idx → α) (h : S1x1x1x1.ShapeCasts S1x1) (u0 u1 : Fin 1) :
    shapeCast S1x1 x h (ix2 u0 u1) = x (ix4 0 0 u0 u1) :=
  shapeCast_apply x h _ _ (by
    have := u0.isLt; have := u1.isLt
    rw [Shape.rowMajor_val_four, Shape.rowMajor_val_two]
    show ((0 * 1 + 0) * 1 + u0.val) * 1 + u1.val = u0.val * 1 + u1.val
    omega)

theorem cast_bcrw_u (x : S2x8x4x128.Idx → α) (h : S2x8x4x128.ShapeCasts S2x8x4x128x1)
    (b : Fin 2) (c : Fin 8) (r : Fin 4) (w : Fin 128) (u : Fin 1) :
    shapeCast S2x8x4x128x1 x h (ix5 b c r w u) = x (ix4 b c r w) :=
  shapeCast_apply x h _ _ (by
    have hu := u.isLt
    rw [Shape.rowMajor_val_four, Shape.rowMajor_val_five]
    show ((b.val * 8 + c.val) * 4 + r.val) * 128 + w.val = (((b.val * 8 + c.val) * 4 + r.val) * 128 + w.val) * 1 + u.val
    omega)

theorem cast_bcru_u (x : S2x8x4x1.Idx → α) (h : S2x8x4x1.ShapeCasts S2x8x4x1x1)
    (b : Fin 2) (c : Fin 8) (r : Fin 4) (u u' : Fin 1) :
    shapeCast S2x8x4x1x1 x h (ix5 b c r u u') = x (ix4 b c r u) :=
  shapeCast_apply x h _ _ (by
    have hu := u.isLt; have hu' := u'.isLt
    rw [Shape.rowMajor_val_four, Shape.rowMajor_val_five]
    show ((b.val * 8 + c.val) * 4 + r.val) * 1 + u.val = (((b.val * 8 + c.val) * 4 + r.val) * 1 + u.val) * 1 + u'.val
    omega)

theorem cast_bcuu_u (x : S2x8x1x1.Idx → α) (h : S2x8x1x1.ShapeCasts S2x8x1x1x1)
    (b : Fin 2) (c : Fin 8) (u u' u'' : Fin 1) :
    shapeCast S2x8x1x1x1 x h (ix5 b c u u' u'') = x (ix4 b c u u') :=
  shapeCast_apply x h _ _ (by
    have hu := u.isLt; have hu' := u'.isLt; have hu'' := u''.isLt
    rw [Shape.rowMajor_val_four, Shape.rowMajor_val_five]
    show ((b.val * 8 + c.val) * 1 + u.val) * 1 + u'.val = (((b.val * 8 + c.val) * 1 + u.val) * 1 + u'.val) * 1 + u''.val
    omega)

theorem cast_bcuuu_bc (x : S2x8x1x1x1.Idx → α) (h : S2x8x1x1x1.ShapeCasts S2x8)
    (b : Fin 2) (c : Fin 8) :
    shapeCast S2x8 x h (ix2 b c) = x (ix5 b c 0 0 0) :=
  shapeCast_apply x h _ _ (by
    rw [Shape.rowMajor_val_five, Shape.rowMajor_val_two]
    show (((b.val * 8 + c.val) * 1 + 0) * 1 + 0) * 1 + 0 = b.val * 8 + c.val
    omega)

/-- The batch-summed log-probabilities given back a leading unit axis. -/
theorem cast_crwd_u (x : S8x4x128x128.Idx → α) (h : S8x4x128x128.ShapeCasts S1x8x4x128x128)
    (u : Fin 1) (c : Fin 8) (r : Fin 4) (w d : Fin 128) :
    shapeCast S1x8x4x128x128 x h (ix5 u c r w d) = x (ix4 c r w d) :=
  shapeCast_apply x h _ _ (by
    have hu := u.isLt
    rw [Shape.rowMajor_val_four, Shape.rowMajor_val_five]
    show ((c.val * 4 + r.val) * 128 + w.val) * 128 + d.val = (((u.val * 8 + c.val) * 4 + r.val) * 128 + w.val) * 128 + d.val
    omega)

/-! ## Broadcasts along unit axes -/

/-- The labels laid along the class axis. -/
theorem bcast_labels (x : S2x1x4x128x128.Idx → α) (h : S2x1x4x128x128.Broadcasts S2x8x4x128x128)
    (b : Fin 2) (c : Fin 8) (r : Fin 4) (w d : Fin 128) :
    broadcastTo S2x8x4x128x128 x h (ix5 b c r w d) = x (ix5 b 0 r w d) :=
  broadcastTo_apply x h _ _ fun a => match a with
    | ⟨0, _⟩ => rfl | ⟨1, _⟩ => rfl | ⟨2, _⟩ => rfl | ⟨3, _⟩ => rfl | ⟨4, _⟩ => rfl

/-- The class numbers laid along every other axis. -/
theorem bcast_classes (x : S1x8x1x1x1.Idx → α) (h : S1x8x1x1x1.Broadcasts S2x8x4x128x128)
    (b : Fin 2) (c : Fin 8) (r : Fin 4) (w d : Fin 128) :
    broadcastTo S2x8x4x128x128 x h (ix5 b c r w d) = x (ix5 0 c 0 0 0) :=
  broadcastTo_apply x h _ _ fun a => match a with
    | ⟨0, _⟩ => rfl | ⟨1, _⟩ => rfl | ⟨2, _⟩ => rfl | ⟨3, _⟩ => rfl | ⟨4, _⟩ => rfl

/-- The batch-summed log-probabilities laid along the batch axis. -/
theorem bcast_batch (x : S1x8x4x128x128.Idx → α) (h : S1x8x4x128x128.Broadcasts S2x8x4x128x128)
    (b : Fin 2) (c : Fin 8) (r : Fin 4) (w d : Fin 128) :
    broadcastTo S2x8x4x128x128 x h (ix5 b c r w d) = x (ix5 0 c r w d) :=
  broadcastTo_apply x h _ _ fun a => match a with
    | ⟨0, _⟩ => rfl | ⟨1, _⟩ => rfl | ⟨2, _⟩ => rfl | ⟨3, _⟩ => rfl | ⟨4, _⟩ => rfl

/-! ## The same steps as whole arrays

Each step above as an equation between arrays (a function of the result index), so that a chain of steps can be rewritten
from the outside in without going under a sum's binder. -/

section whole
variable (hφ : FKind.Formats FTy.f32) (hacc : (0x00000000#32 : BitVec 32) = 0x00000000#32)

theorem sum_batch_fun (src : FVec Ideal S2x8x4x128x128 .f32) (h : S2x8x4x128x128.Reduces [0] S8x4x128x128) :
    multiReduction .add [0] S8x4x128x128 src 0x00000000#32 h hφ hacc = fun j => ∑ b : Fin 2, src (ix5 b (j 0) (j 1) (j 2) (j 3)) :=
  funext fun j => (congrArg _ (eq_ix4 j)).trans (sum_batch hφ hacc src h (j 0) (j 1) (j 2) (j 3))

theorem sum_class_fun (src : FVec Ideal S2x8x4x128x128 .f32) (h : S2x8x4x128x128.Reduces [1] S2x4x128x128) :
    multiReduction .add [1] S2x4x128x128 src 0x00000000#32 h hφ hacc = fun j => ∑ c : Fin 8, src (ix5 (j 0) c (j 1) (j 2) (j 3)) :=
  funext fun j => (congrArg _ (eq_ix4 j)).trans (sum_class hφ hacc src h (j 0) (j 1) (j 2) (j 3))

theorem sum_d4_fun (src : FVec Ideal S2x4x128x128 .f32) (h : S2x4x128x128.Reduces [3] S2x4x128) :
    multiReduction .add [3] S2x4x128 src 0x00000000#32 h hφ hacc = fun j => ∑ d : Fin 128, src (ix4 (j 0) (j 1) (j 2) d) :=
  funext fun j => (congrArg _ (eq_ix3 j)).trans (sum_d4 hφ hacc src h (j 0) (j 1) (j 2))

theorem sum_w4_fun (src : FVec Ideal S2x4x128x1 .f32) (h : S2x4x128x1.Reduces [2] S2x4x1) :
    multiReduction .add [2] S2x4x1 src 0x00000000#32 h hφ hacc = fun j => ∑ w : Fin 128, src (ix4 (j 0) (j 1) w (j 2)) :=
  funext fun j => (congrArg _ (eq_ix3 j)).trans (sum_w4 hφ hacc src h (j 0) (j 1) (j 2))

theorem sum_r4_fun (src : FVec Ideal S2x4x1x1 .f32) (h : S2x4x1x1.Reduces [1] S2x1x1) :
    multiReduction .add [1] S2x1x1 src 0x00000000#32 h hφ hacc = fun j => ∑ r : Fin 4, src (ix4 (j 0) r (j 1) (j 2)) :=
  funext fun j => (congrArg _ (eq_ix3 j)).trans (sum_r4 hφ hacc src h (j 0) (j 1) (j 2))

theorem sum_b4_fun (src : FVec Ideal S2x1x1x1 .f32) (h : S2x1x1x1.Reduces [0] S1x1x1) :
    multiReduction .add [0] S1x1x1 src 0x00000000#32 h hφ hacc = fun j => ∑ b : Fin 2, src (ix4 b (j 0) (j 1) (j 2)) :=
  funext fun j => (congrArg _ (eq_ix3 j)).trans (sum_b4 hφ hacc src h (j 0) (j 1) (j 2))

theorem sum_d5_fun (src : FVec Ideal S2x8x4x128x128 .f32) (h : S2x8x4x128x128.Reduces [4] S2x8x4x128) :
    multiReduction .add [4] S2x8x4x128 src 0x00000000#32 h hφ hacc = fun j => ∑ d : Fin 128, src (ix5 (j 0) (j 1) (j 2) (j 3) d) :=
  funext fun j => (congrArg _ (eq_ix4 j)).trans (sum_d5 hφ hacc src h (j 0) (j 1) (j 2) (j 3))

theorem sum_w5_fun (src : FVec Ideal S2x8x4x128x1 .f32) (h : S2x8x4x128x1.Reduces [3] S2x8x4x1) :
    multiReduction .add [3] S2x8x4x1 src 0x00000000#32 h hφ hacc = fun j => ∑ w : Fin 128, src (ix5 (j 0) (j 1) (j 2) w (j 3)) :=
  funext fun j => (congrArg _ (eq_ix4 j)).trans (sum_w5 hφ hacc src h (j 0) (j 1) (j 2) (j 3))

theorem sum_r5_fun (src : FVec Ideal S2x8x4x1x1 .f32) (h : S2x8x4x1x1.Reduces [2] S2x8x1x1) :
    multiReduction .add [2] S2x8x1x1 src 0x00000000#32 h hφ hacc = fun j => ∑ r : Fin 4, src (ix5 (j 0) (j 1) r (j 2) (j 3)) :=
  funext fun j => (congrArg _ (eq_ix4 j)).trans (sum_r5 hφ hacc src h (j 0) (j 1) (j 2) (j 3))

end whole

theorem cast_brw_u_fun (x : S2x4x128.Idx → α) (h : S2x4x128.ShapeCasts S2x4x128x1) :
    shapeCast S2x4x128x1 x h = fun j => x (ix3 (j 0) (j 1) (j 2)) :=
  funext fun j => (congrArg _ (eq_ix4 j)).trans (cast_brw_u x h _ _ _ _)

theorem cast_bru_u_fun (x : S2x4x1.Idx → α) (h : S2x4x1.ShapeCasts S2x4x1x1) :
    shapeCast S2x4x1x1 x h = fun j => x (ix3 (j 0) (j 1) (j 2)) :=
  funext fun j => (congrArg _ (eq_ix4 j)).trans (cast_bru_u x h _ _ _ _)

theorem cast_buu_u_fun (x : S2x1x1.Idx → α) (h : S2x1x1.ShapeCasts S2x1x1x1) :
    shapeCast S2x1x1x1 x h = fun j => x (ix3 (j 0) (j 1) (j 2)) :=
  funext fun j => (congrArg _ (eq_ix4 j)).trans (cast_buu_u x h _ _ _ _)

theorem cast_uuu_u_fun (x : S1x1x1.Idx → α) (h : S1x1x1.ShapeCasts S1x1x1x1) :
    shapeCast S1x1x1x1 x h = fun j => x (ix3 (j 0) (j 1) (j 2)) :=
  funext fun j => (congrArg _ (eq_ix4 j)).trans (cast_uuu_u x h _ _ _ _)

theorem cast_uuuu_uu_fun (x : S1x1x1x1.Idx → α) (h : S1x1x1x1.ShapeCasts S1x1) :
    shapeCast S1x1 x h = fun j => x (ix4 0 0 (j 0) (j 1)) :=
  funext fun j => (congrArg _ (eq_ix2 j)).trans (cast_uuuu_uu x h _ _)

theorem cast_bcrw_u_fun (x : S2x8x4x128.Idx → α) (h : S2x8x4x128.ShapeCasts S2x8x4x128x1) :
    shapeCast S2x8x4x128x1 x h = fun j => x (ix4 (j 0) (j 1) (j 2) (j 3)) :=
  funext fun j => (congrArg _ (eq_ix5 j)).trans (cast_bcrw_u x h _ _ _ _ _)

theorem cast_bcru_u_fun (x : S2x8x4x1.Idx → α) (h : S2x8x4x1.ShapeCasts S2x8x4x1x1) :
    shapeCast S2x8x4x1x1 x h = fun j => x (ix4 (j 0) (j 1) (j 2) (j 3)) :=
  funext fun j => (congrArg _ (eq_ix5 j)).trans (cast_bcru_u x h _ _ _ _ _)

theorem cast_bcuu_u_fun (x : S2x8x1x1.Idx → α) (h : S2x8x1x1.ShapeCasts S2x8x1x1x1) :
    shapeCast S2x8x1x1x1 x h = fun j => x (ix4 (j 0) (j 1) (j 2) (j 3)) :=
  funext fun j => (congrArg _ (eq_ix5 j)).trans (cast_bcuu_u x h _ _ _ _ _)

theorem cast_bcuuu_bc_fun (x : S2x8x1x1x1.Idx → α) (h : S2x8x1x1x1.ShapeCasts S2x8) :
    shapeCast S2x8 x h = fun j => x (ix5 (j 0) (j 1) 0 0 0) :=
  funext fun j => (congrArg _ (eq_ix2 j)).trans (cast_bcuuu_bc x h _ _)

theorem cast_crwd_u_fun (x : S8x4x128x128.Idx → α) (h : S8x4x128x128.ShapeCasts S1x8x4x128x128) :
    shapeCast S1x8x4x128x128 x h = fun j => x (ix4 (j 1) (j 2) (j 3) (j 4)) :=
  funext fun j => (congrArg _ (eq_ix5 j)).trans (cast_crwd_u x h _ _ _ _ _)

theorem bcast_batch_fun (x : S1x8x4x128x128.Idx → α) (h : S1x8x4x128x128.Broadcasts S2x8x4x128x128) :
    broadcastTo S2x8x4x128x128 x h = fun j => x (ix5 0 (j 1) (j 2) (j 3) (j 4)) :=
  funext fun j => (congrArg _ (eq_ix5 j)).trans (bcast_batch x h _ _ _ _ _)

end Cert.KernelIdeal.Tile

end
-- ==== Proof.LossSpec.lean ====
/-
  The loss both programs compute, as one function of the two argument arrays, on the extended reals.

  `P` holds class probabilities indexed (batch b, class c, h, w, d) and `Tg` integer labels indexed
  (b, 0, h, w, d). With `ℓ(b,c,v) = log (P(b,c,v) + ε)` at a voxel `v = (h,w,d)`:

  * cross-entropy part: `Λ(c,v) = Σ_b ℓ(b,c,v)` (the sum over the batch axis), and for every batch entry and voxel
    the one-hot pick `Σ_c [Tg(b,v) = c] · Λ(c,v)`; these are summed over all (b, v), negated and divided by
    2·2·128³ = 8388608;
  * dice part: per (b,c) the three voxel sums `Σ_v [Tg(b,v)=c]·P(b,c,v)`, `Σ_v [Tg(b,v)=c]`, `Σ_v P(b,c,v)`, the term
    `1 − (2·inter + s)/(ground + pred + s)`, and the mean of the 16 terms.

  Float literals stay the words the programs print (read by `Ideal.ofBits`): the same word on both sides is never
  evaluated.
-/
import Idealize.ShloMosaic.PureOps.Ideal
import Idealize.ShloMosaic.Lib.ValueIdx

noncomputable section

namespace Cert.DiceCE

open Idealize.ShloMosaic Idealize.ShloMosaic.ValueIdx
open scoped BigOperators

/-- Indices of the probability array, f32[2, 8, 128, 128, 128]. -/
abbrev PredIdx := (⟨5, ![2, 8, 128, 128, 128]⟩ : Shape).Idx
/-- Indices of the label array, i32[2, 1, 128, 128, 128]. -/
abbrev LabIdx := (⟨5, ![2, 1, 128, 128, 128]⟩ : Shape).Idx

/-- The ε added under the logarithm (the word of f32 1e-10). -/
def eps : EReal := Ideal.ofBits .f32 0x2EDBE6FF#32
/-- The dice smoothing term (the word of f32 1e-5). -/
def smooth : EReal := Ideal.ofBits .f32 0x3727C5AC#32
def two : EReal := Ideal.ofBits .f32 0x40000000#32
def one : EReal := Ideal.ofBits .f32 0x3F800000#32
def sixteen : EReal := Ideal.ofBits .f32 0x41800000#32
/-- 2 · 2 · 128³ = 8388608, the cross-entropy divisor. -/
def voxels2 : EReal := Ideal.ofBits .f32 0x4B000000#32

variable (P : PredIdx → EReal) (Tg : LabIdx → BitVec 32)

/-- ℓ(b,c,v) = log (P(b,c,v) + ε). -/
def logp (b : Fin 2) (c : Fin 8) (h w d : Fin 128) : EReal := Ideal.log (P (ix5 b c h w d) + eps)

/-- Λ(c,v): the log-probabilities summed over the batch axis. -/
def logpSum (c : Fin 8) (h w d : Fin 128) : EReal := ∑ b : Fin 2, logp P b c h w d

/-- The one-hot entry [Tg(b,v) = c], as an extended real. -/
def hot (b : Fin 2) (c : Fin 8) (h w d : Fin 128) : EReal :=
  if Tg (ix5 b 0 h w d) = BitVec.ofNat 32 c.val then 1 else 0

/-- The one-hot pick of Λ at a batch entry and voxel. -/
def picked (b : Fin 2) (h w d : Fin 128) : EReal := ∑ c : Fin 8, hot Tg b c h w d * logpSum P c h w d

/-- The picks summed over every batch entry and voxel. -/
def ceSum : EReal := ∑ b : Fin 2, ∑ h : Fin 128, ∑ w : Fin 128, ∑ d : Fin 128, picked P Tg b h w d

def inter (b : Fin 2) (c : Fin 8) : EReal :=
  ∑ h : Fin 128, ∑ w : Fin 128, ∑ d : Fin 128, hot Tg b c h w d * P (ix5 b c h w d)

def ground (b : Fin 2) (c : Fin 8) : EReal := ∑ h : Fin 128, ∑ w : Fin 128, ∑ d : Fin 128, hot Tg b c h w d

def predSum (b : Fin 2) (c : Fin 8) : EReal := ∑ h : Fin 128, ∑ w : Fin 128, ∑ d : Fin 128, P (ix5 b c h w d)

/-- 1 − (2·inter + s)/(ground + pred + s). -/
def diceTerm (b : Fin 2) (c : Fin 8) : EReal :=
  one - Ideal.div (two * inter P Tg b c + smooth) (ground Tg b c + predSum P b c + smooth)

/-- The loss: 1·(−ceSum / 8388608) + 1·(Σ_{b,c} diceTerm / 16). -/
def loss : EReal :=
  one * Ideal.div (-(ceSum P Tg)) voxels2 + one * Ideal.div (∑ b : Fin 2, ∑ c : Fin 8, diceTerm P Tg b c) sixteen

/-- Every label is one of the eight classes. -/
def LabelsInRange : Prop := ∀ i : LabIdx, ∃ k : Fin 8, Tg i = BitVec.ofNat 32 k.val

end Cert.DiceCE

end
-- ==== Proof.TilePayload.lean ====
/-
  One tile's arithmetic as sums over its coordinates.

  From a block x0 of probabilities and a block x1 of labels the body forms the one-hot array [label = c], the batch-summed
  log-probabilities, and four partial results: the tile's share of the cross-entropy sum (one number) and, per (b, c), its
  shares of Σ [label = c]·P, Σ [label = c] and Σ P. Each running value stored back is the carried one plus the share.
-/
import proofs.«424769_j9423158247527_4_alg».proof.Proof.TileLayout
import proofs.«424769_j9423158247527_4_alg».proof.Proof.LossSpec
import Idealize.ShloMosaic.Lib.StableHlo.Predicate

noncomputable section

namespace Cert.KernelIdeal.Tile

open Cert.KernelIdeal Cert.KernelIdeal.Gen Idealize.ShloMosaic Idealize.ShloMosaic.ValueIdx
open scoped BigOperators

/-- The one-hot entry of a label block: [label(b, r, w, d) = c]. -/
def hotB (x1 : S2x1x4x128x128.Idx → BitVec 32) (b : Fin 2) (c : Fin 8) (r : Fin 4) (w d : Fin 128) : EReal :=
  if x1 (ix5 b 0 r w d) = BitVec.ofNat 32 c.val then 1 else 0

/-- A tile's share of the cross-entropy sum: over its (b, r, w, d), the one-hot pick of the batch-summed
    log-probabilities. -/
def cePart (x0 : S2x8x4x128x128.Idx → EReal) (x1 : S2x1x4x128x128.Idx → BitVec 32) : EReal :=
  ∑ b : Fin 2, ∑ r : Fin 4, ∑ w : Fin 128, ∑ d : Fin 128, ∑ c : Fin 8,
    hotB x1 b c r w d * ∑ b' : Fin 2, Ideal.log (x0 (ix5 b' c r w d) + Cert.DiceCE.eps)

/-- A tile's share of Σ_v [label = c] · P(b, c, v). -/
def interPart (x0 : S2x8x4x128x128.Idx → EReal) (x1 : S2x1x4x128x128.Idx → BitVec 32) (b : Fin 2) (c : Fin 8) : EReal :=
  ∑ r : Fin 4, ∑ w : Fin 128, ∑ d : Fin 128, hotB x1 b c r w d * x0 (ix5 b c r w d)

/-- A tile's share of Σ_v [label = c]. -/
def groundPart (x1 : S2x1x4x128x128.Idx → BitVec 32) (b : Fin 2) (c : Fin 8) : EReal :=
  ∑ r : Fin 4, ∑ w : Fin 128, ∑ d : Fin 128, hotB x1 b c r w d

/-- A tile's share of Σ_v P(b, c, v). -/
def predPart (x0 : S2x8x4x128x128.Idx → EReal) (b : Fin 2) (c : Fin 8) : EReal :=
  ∑ r : Fin 4, ∑ w : Fin 128, ∑ d : Fin 128, x0 (ix5 b c r w d)

/-- A one-bit word widened and read as a signed integer is 1 when set and 0 when clear. -/
theorem bit_toInt (p : Prop) [Decidable p] (v : BitVec 1) (hv : v = 1#1 ↔ p) :
    (((v.setWidth 32).toInt : ℝ) : EReal) = if p then 1 else 0 := by
  by_cases hp : p
  · rw [if_pos hp, hv.2 hp]
    have : ((1#1 : BitVec 1).setWidth 32).toInt = 1 := by decide
    rw [this]; norm_num
  · rw [if_neg hp, eq_zero_of_ne_one (fun h => hp (hv.1 h))]
    have : ((0#1 : BitVec 1).setWidth 32).toInt = 0 := by decide
    rw [this]; norm_num

/-- The body's one-hot array: the labels compared with the class numbers, widened, converted. -/
theorem onehot_apply (x1 : Vec Ideal S2x1x4x128x128 .i32) (b : Fin 2) (c : Fin 8) (r : Fin 4) (w d : Fin 128) :
    k0_pay10 (F := Ideal) x1 (ix5 b c r w d) = hotB x1 b c r w d := by
  unfold k0_pay10 hotB
  show (((BitVec.setWidth 32 (IntOp.cmpi .eq
      (broadcastTo S2x8x4x128x128 (shapeCast S2x1x4x128x128 (shapeCast S2x4x128x128 x1 _) _) _ (ix5 b c r w d))
      (broadcastTo S2x8x4x128x128 (iota .tc S1x8x1x1x1 32 [1] _) _ (ix5 b c r w d)))).toInt : ℝ) : EReal) = _
  rw [bcast_labels, bcast_classes, shapeCast_shapeCast, iota_single_apply]
  exact bit_toInt _ _ StableHlo.Predicate.cmpi_eq_iff

/-- The one-hot array as a whole. -/
theorem onehot_fun (x1 : Vec Ideal S2x1x4x128x128 .i32) :
    k0_pay10 (F := Ideal) x1 = fun j => hotB x1 (j 0) (j 1) (j 2) (j 3) (j 4) :=
  funext fun j => (congrArg _ (eq_ix5 j)).trans (onehot_apply x1 _ _ _ _ _)

/-- The tile's cross-entropy share, as the body computes it: log, batch sum, one-hot product, then the class, d, w, r
    and b axes summed in that order. -/
theorem pay11_apply (x0 : Vec Ideal S2x8x4x128x128 .f32) (x1 : Vec Ideal S2x1x4x128x128 .i32) (u u' : Fin 1) :
    k0_pay11 (F := Ideal) x0 x1 (ix2 u u') = cePart x0 x1 := by
  unfold k0_pay11 cePart
  rw [cast_uuuu_uu_fun, cast_uuu_u_fun, sum_b4_fun, cast_buu_u_fun, sum_r4_fun, cast_bru_u_fun, sum_w4_fun, cast_brw_u_fun,
    sum_d4_fun, sum_class_fun, bcast_batch_fun, cast_crwd_u_fun, sum_batch_fun, onehot_fun]
  rfl

/-- The running Σ [label = c]·P after a tile: the carried value plus the tile's share. -/
theorem pay14_apply (x0 : Vec Ideal S2x8x4x128x128 .f32) (x1 : Vec Ideal S2x1x4x128x128 .i32) (acc : Vec Ideal S2x8 .f32)
    (b : Fin 2) (c : Fin 8) :
    k0_pay14 (F := Ideal) (k0_pay12 x0 x1) acc (ix2 b c) = acc (ix2 b c) + interPart x0 x1 b c := by
  unfold k0_pay14 k0_pay12 interPart
  rw [shapeCast_self]
  show acc (ix2 b c) + _ = _
  congr 1
  rw [cast_bcuuu_bc_fun, cast_bcuu_u_fun, sum_r5_fun, cast_bcru_u_fun, sum_w5_fun, cast_bcrw_u_fun, sum_d5_fun, onehot_fun]
  rfl

theorem pay15_apply (x1 : Vec Ideal S2x1x4x128x128 .i32) (acc : Vec Ideal S2x8 .f32) (b : Fin 2) (c : Fin 8) :
    k0_pay15 (F := Ideal) (k0_pay10 x1) acc (ix2 b c) = acc (ix2 b c) + groundPart x1 b c := by
  unfold k0_pay15 groundPart
  rw [shapeCast_self]
  show acc (ix2 b c) + _ = _
  congr 1
  rw [cast_bcuuu_bc_fun, cast_bcuu_u_fun, sum_r5_fun, cast_bcru_u_fun, sum_w5_fun, cast_bcrw_u_fun, sum_d5_fun, onehot_fun]

theorem pay16_apply (x0 : Vec Ideal S2x8x4x128x128 .f32) (acc : Vec Ideal S2x8 .f32) (b : Fin 2) (c : Fin 8) :
    k0_pay16 (F := Ideal) x0 acc (ix2 b c) = acc (ix2 b c) + predPart x0 b c := by
  unfold k0_pay16 predPart
  show acc (ix2 b c) + _ = _
  congr 1
  rw [cast_bcuuu_bc_fun, cast_bcuu_u_fun, sum_r5_fun, cast_bcru_u_fun, sum_w5_fun, cast_bcrw_u_fun, sum_d5_fun]

theorem pay13_apply (v acc : Vec Ideal S1x1 .f32) (u u' : Fin 1) :
    k0_pay13 (F := Ideal) v acc (ix2 u u') = acc (ix2 u u') + v (ix2 u u') := by
  unfold k0_pay13
  rw [shapeCast_self]
  rfl

theorem pay1_eq (v : Vec Ideal S2x8 .f32) : k0_pay1 (F := Ideal) v = v := by
  unfold k0_pay1
  exact shapeCast_self _ _

/-- The reset values are zero. -/
theorem pay6_apply (i : S1x1.Idx) : k0_pay6 (F := Ideal) i = 0 := by
  unfold k0_pay6
  rw [shapeCast_self]
  exact Ideal.ofBits_zero_f32

theorem pay7_apply (i : S2x8.Idx) : k0_pay7 (F := Ideal) i = 0 := by
  unfold k0_pay7
  rw [shapeCast_self]
  exact Ideal.ofBits_zero_f32

theorem pay8_apply (i : S2x8.Idx) : k0_pay8 (F := Ideal) i = 0 := by
  unfold k0_pay8
  rw [shapeCast_self]
  exact Ideal.ofBits_zero_f32

theorem pay9_apply (i : S2x8.Idx) : k0_pay9 (F := Ideal) i = 0 := by
  unfold k0_pay9
  rw [shapeCast_self]
  exact Ideal.ofBits_zero_f32

/-- What is written out at a shard's last tile: the running values, given a leading unit axis. -/
theorem pay2_apply (v : Vec Ideal S1x1 .f32) (u0 u1 u2 : Fin 1) : k0_pay2 (F := Ideal) v (ix3 u0 u1 u2) = v (ix2 u1 u2) := by
  unfold k0_pay2
  exact shapeCast_ab_1ab_apply _ _ _ _ _

theorem pay3_apply (v : Vec Ideal S2x8 .f32) (u : Fin 1) (b : Fin 2) (c : Fin 8) : k0_pay3 (F := Ideal) v (ix3 u b c) = v (ix2 b c) := by
  unfold k0_pay3
  exact shapeCast_ab_1ab_apply _ _ _ _ _

theorem pay4_apply (v : Vec Ideal S2x8 .f32) (u : Fin 1) (b : Fin 2) (c : Fin 8) : k0_pay4 (F := Ideal) v (ix3 u b c) = v (ix2 b c) := by
  unfold k0_pay4
  exact shapeCast_ab_1ab_apply _ _ _ _ _

theorem pay5_apply (v : Vec Ideal S2x8 .f32) (u : Fin 1) (b : Fin 2) (c : Fin 8) : k0_pay5 (F := Ideal) v (ix3 u b c) = v (ix2 b c) := by
  unfold k0_pay5
  exact shapeCast_ab_1ab_apply _ _ _ _ _

end Cert.KernelIdeal.Tile

end
-- ==== Proof.SumLaws.lean ====
/-
  Finite-sum bookkeeping over a commutative monoid, independent of any program.

  The 128 rows of the H axis are cut into 2 shards of 16 tiles of 4 rows: row (s·16 + k)·4 + r. A quantity summed
  tile by tile — a running sum restarted at the first tile of each shard, the two shard totals added at the end — is the
  sum over all rows.
-/
import Mathlib.Algebra.BigOperators.Group.Finset.Basic
import Mathlib.Algebra.BigOperators.Fin
import Mathlib.Algebra.BigOperators.Intervals

namespace Cert.SumLaws

open scoped BigOperators

variable {M : Type*} [AddCommMonoid M]

/-- Row r of tile k of shard s. -/
def rowOf (s : Fin 2) (k : Fin 16) (r : Fin 4) : Fin 128 := ⟨(s.val * 16 + k.val) * 4 + r.val, by omega⟩

/-- (shard, tile, row) ↦ row number is a bijection onto the 128 rows: the inverse reads off the quotient by 64, the
quotient by 4 reduced mod 16, and the remainder mod 4. -/
def rowEquiv : Fin 2 × Fin 16 × Fin 4 ≃ Fin 128 where
  toFun p := rowOf p.1 p.2.1 p.2.2
  invFun h := (⟨h.val / 64, by omega⟩, ⟨h.val / 4 % 16, by omega⟩, ⟨h.val % 4, by omega⟩)
  left_inv := by
    rintro ⟨s, k, r⟩
    simp only [rowOf, Prod.mk.injEq, Fin.ext_iff]
    refine ⟨?_, ?_, ?_⟩ <;> omega
  right_inv := by
    intro h
    simp only [rowOf, Fin.ext_iff]
    omega

/-- Summing shard by shard, tile by tile, row by row visits every row once. -/
theorem sum_tiles (f : Fin 128 → M) :
    ∑ s : Fin 2, ∑ k : Fin 16, ∑ r : Fin 4, f (rowOf s k r) = ∑ h : Fin 128, f h := by
  -- the triple sum is the sum over the product type, which the bijection carries to the sum over the rows
  rw [← Equiv.sum_comp rowEquiv f, Fintype.sum_prod_type]
  refine Finset.sum_congr rfl fun s _ => ?_
  rw [Fintype.sum_prod_type]
  rfl

/-- The same with a batch sum inside each tile. -/
theorem sum_tiles_batch (g : Fin 2 → Fin 128 → M) :
    ∑ s : Fin 2, ∑ k : Fin 16, ∑ b : Fin 2, ∑ r : Fin 4, g b (rowOf s k r) = ∑ b : Fin 2, ∑ h : Fin 128, g b h := by
  -- move the batch sum outside the tile sum, then outside the shard sum; each batch entry's sum is then the row sum
  calc ∑ s : Fin 2, ∑ k : Fin 16, ∑ b : Fin 2, ∑ r : Fin 4, g b (rowOf s k r)
      = ∑ s : Fin 2, ∑ b : Fin 2, ∑ k : Fin 16, ∑ r : Fin 4, g b (rowOf s k r) :=
        Finset.sum_congr rfl fun s _ => Finset.sum_comm
    _ = ∑ b : Fin 2, ∑ s : Fin 2, ∑ k : Fin 16, ∑ r : Fin 4, g b (rowOf s k r) := Finset.sum_comm
    _ = ∑ b : Fin 2, ∑ h : Fin 128, g b h := Finset.sum_congr rfl fun b _ => sum_tiles (g b)

/-- The running sum of `part` over the group of 16 consecutive positions that holds `n`, up to and including `n`. -/
def runSum (part : ℕ → M) (n : ℕ) : M := ∑ j ∈ Finset.range (n % 16 + 1), part (n - n % 16 + j)

theorem runSum_first (part : ℕ → M) {n : ℕ} (h : n % 16 = 0) : runSum part n = part n := by
  -- the group starts at n, so the running sum has the single term part n
  simp [runSum, h]

theorem runSum_next (part : ℕ → M) {n : ℕ} (h : ¬ n % 16 = 0) : runSum part n = runSum part (n - 1) + part n := by
  -- n − 1 lies in the same group one position earlier; split off the last term
  unfold runSum
  have h1 : (n - 1) % 16 + 1 = n % 16 := by omega
  have h2 : n - 1 - (n - 1) % 16 = n - n % 16 := by omega
  have h3 : n - n % 16 + n % 16 = n := by omega
  rw [Finset.sum_range_succ, h1, h2, h3]

/-- At the last position of group `s` the running sum is the group's total. -/
theorem runSum_last (part : ℕ → M) (s : ℕ) : runSum part (16 * s + 15) = ∑ k : Fin 16, part (16 * s + k.val) := by
  -- position 16·s + 15 has remainder 15, so the group starts at 16·s and all 16 terms are present
  unfold runSum
  have h1 : (16 * s + 15) % 16 = 15 := by omega
  have h2 : 16 * s + 15 - 15 = 16 * s := by omega
  rw [h1, h2, Finset.sum_range]

end Cert.SumLaws
-- ==== Proof.ShardSpec.lean ====
/-
  The loss as the tiled program accumulates it.

  The 128 rows are 2 shards of 16 tiles of 4 rows (row (s·16 + k)·4 + r). Per shard s the program ends with four
  totals over the shard's 16 tiles: the cross-entropy picks, and per (b, c) the three dice sums. The two shards' totals
  are then added. `loss_of_shards`: that is the loss of LossSpec.
-/
import proofs.«424769_j9423158247527_4_alg».proof.Proof.LossSpec
import proofs.«424769_j9423158247527_4_alg».proof.Proof.SumLaws

noncomputable section

namespace Cert.DiceCE

open Idealize.ShloMosaic Idealize.ShloMosaic.ValueIdx Cert.SumLaws
open scoped BigOperators

variable (P : PredIdx → EReal) (Tg : LabIdx → BitVec 32)

/-- Shard s's total of the one-hot picks: over its 16 tiles, and in a tile over (b, r, w, d). -/
def ceShard (s : Fin 2) : EReal :=
  ∑ k : Fin 16, ∑ b : Fin 2, ∑ r : Fin 4, ∑ w : Fin 128, ∑ d : Fin 128, picked P Tg b (rowOf s k r) w d

def interShard (s : Fin 2) (b : Fin 2) (c : Fin 8) : EReal :=
  ∑ k : Fin 16, ∑ r : Fin 4, ∑ w : Fin 128, ∑ d : Fin 128, hot Tg b c (rowOf s k r) w d * P (ix5 b c (rowOf s k r) w d)

def groundShard (s : Fin 2) (b : Fin 2) (c : Fin 8) : EReal :=
  ∑ k : Fin 16, ∑ r : Fin 4, ∑ w : Fin 128, ∑ d : Fin 128, hot Tg b c (rowOf s k r) w d

def predShard (s : Fin 2) (b : Fin 2) (c : Fin 8) : EReal :=
  ∑ k : Fin 16, ∑ r : Fin 4, ∑ w : Fin 128, ∑ d : Fin 128, P (ix5 b c (rowOf s k r) w d)

end Cert.DiceCE

end
-- ==== Proof.ShardTotals.lean ====
/-
  The four result arrays of the tiled pass.

  The grid is 32 tiles in order: tile n holds rows 4n … 4n+3 and belongs to shard n / 16. Four running values are carried
  from tile to tile: reset at a shard's first tile, increased by each tile's shares, written out at the shard's last tile.
  By induction on the tile the carried values are the running sums of the shares over the shard's tiles so far
  (`carried`), so what is written out at tile 16 s + 15 is shard s's total (`written`); each result array is covered
  by the two write-backs (`final2` … `final5`), and read through the argument arrays the totals are the shard sums of
  the loss's terms (`ceTotals_eq` …).
-/
import proofs.«424769_j9423158247527_4_alg».proof.Proof.TileCases
import proofs.«424769_j9423158247527_4_alg».proof.Proof.TilePayload
import proofs.«424769_j9423158247527_4_alg».proof.Proof.SumLaws
import proofs.«424769_j9423158247527_4_alg».proof.Proof.ShardSpec
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Accum

open Cert.KernelIdeal Cert.KernelIdeal.Gen Cert.KernelIdeal.Tile Cert.KernelIdeal.Pieces Cert.SumLaws

variable (m : (ℓ : Loc nD τ sig) → Buf (Elt Ideal) ℓ)

/-- The probability array and the label array as the region finds them. -/
abbrev predArr (c : Dev nD) : Vec Ideal S2x8x128x128x128 .f32 := V m c main_arg0
abbrev labArr (c : Dev nD) : Vec Ideal S2x1x128x128x128 .i32 := V m c main_arg1

/-- Tile t's two blocks. -/
abbrev xblk (c : Dev nD) (t : Fin cfg0.N) : Vec Ideal S2x8x4x128x128 .f32 := iblk m c 0 t
abbrev lblk (c : Dev nD) (t : Fin cfg0.N) : Vec Ideal S2x1x4x128x128 .i32 := iblk m c 1 t

theorem N32 : cfg0.N = 32 := N_0

/-- The index maps over the grid: both input windows move along the row axis only, one block per point. -/
theorem idx_in : ∀ t : Fin cfg0.N,
    win0_0.index t (0 : Fin 5) = 0 ∧ win0_0.index t (1 : Fin 5) = 0 ∧ win0_0.index t (2 : Fin 5) = t.val
    ∧ win0_0.index t (3 : Fin 5) = 0 ∧ win0_0.index t (4 : Fin 5) = 0
    ∧ win0_1.index t (0 : Fin 5) = 0 ∧ win0_1.index t (1 : Fin 5) = 0 ∧ win0_1.index t (2 : Fin 5) = t.val
    ∧ win0_1.index t (3 : Fin 5) = 0 ∧ win0_1.index t (4 : Fin 5) = 0 :=
  (by decide +kernel : ∀ t : Fin grid0.N, _)

/-- Row r of tile t. -/
def tileRow (t : Fin cfg0.N) (r : Fin 4) : Fin 128 := ⟨4 * t.val + r.val, by have h : t.val < 32 := lt_of_lt_of_eq t.isLt N32; have := r.isLt; omega⟩

/-- Tile t's probability block is rows 4t … 4t+3 of the array. -/
theorem xblk_apply (c : Dev nD) (t : Fin cfg0.N) (b : Fin 2) (k : Fin 8) (r : Fin 4) (w d : Fin 128) :
    xblk m c t (ix5 b k r w d) = predArr m c (ix5 b k (tileRow t r) w d) := by
  obtain ⟨e0, e1, e2, e3, e4, -⟩ := idx_in t
  show V m c main_arg0 (((cfg0.win 0).blk t).view.emb (ix5 b k r w d)) = V m c main_arg0 (ix5 b k (tileRow t r) w d)
  refine congrArg _ (funext fun a => Fin.ext ?_)
  match a with
  | ⟨0, _⟩ => show win0_0.index t (0 : Fin 5) * 2 + 1 * b.val = b.val; omega
  | ⟨1, _⟩ => show win0_0.index t (1 : Fin 5) * 8 + 1 * k.val = k.val; omega
  | ⟨2, _⟩ => show win0_0.index t (2 : Fin 5) * 4 + 1 * r.val = 4 * t.val + r.val; omega
  | ⟨3, _⟩ => show win0_0.index t (3 : Fin 5) * 128 + 1 * w.val = w.val; omega
  | ⟨4, _⟩ => show win0_0.index t (4 : Fin 5) * 128 + 1 * d.val = d.val; omega

theorem lblk_apply (c : Dev nD) (t : Fin cfg0.N) (b : Fin 2) (u : Fin 1) (r : Fin 4) (w d : Fin 128) :
    lblk m c t (ix5 b u r w d) = labArr m c (ix5 b u (tileRow t r) w d) := by
  obtain ⟨-, -, -, -, -, e0, e1, e2, e3, e4⟩ := idx_in t
  show V m c main_arg1 (((cfg0.win 1).blk t).view.emb (ix5 b u r w d)) = V m c main_arg1 (ix5 b u (tileRow t r) w d)
  refine congrArg _ (funext fun a => Fin.ext ?_)
  match a with
  | ⟨0, _⟩ => show win0_1.index t (0 : Fin 5) * 2 + 1 * b.val = b.val; omega
  | ⟨1, _⟩ => show win0_1.index t (1 : Fin 5) * 1 + 1 * u.val = u.val; omega
  | ⟨2, _⟩ => show win0_1.index t (2 : Fin 5) * 4 + 1 * r.val = 4 * t.val + r.val; omega
  | ⟨3, _⟩ => show win0_1.index t (3 : Fin 5) * 128 + 1 * w.val = w.val; omega
  | ⟨4, _⟩ => show win0_1.index t (4 : Fin 5) * 128 + 1 * d.val = d.val; omega

/-! ## The shares of tile n, for every natural n (zero past the grid) -/

def ceN (c : Dev nD) (n : ℕ) : EReal := if h : n < cfg0.N then cePart (xblk m c ⟨n, h⟩) (lblk m c ⟨n, h⟩) else 0
def interN (c : Dev nD) (b : Fin 2) (k : Fin 8) (n : ℕ) : EReal :=
  if h : n < cfg0.N then interPart (xblk m c ⟨n, h⟩) (lblk m c ⟨n, h⟩) b k else 0
def groundN (c : Dev nD) (b : Fin 2) (k : Fin 8) (n : ℕ) : EReal :=
  if h : n < cfg0.N then groundPart (lblk m c ⟨n, h⟩) b k else 0
def predN (c : Dev nD) (b : Fin 2) (k : Fin 8) (n : ℕ) : EReal :=
  if h : n < cfg0.N then predPart (xblk m c ⟨n, h⟩) b k else 0

/-- After tile n the four carried values are the running sums of the shares over the tiles of n's shard up to n. -/
def Carried (c : Dev nD) (n : ℕ) (hn : n < cfg0.N) : Prop :=
  (∀ u u' : Fin 1, (outsAt0 m c n hn).2.2.2.2.1 (ix2 u u') = runSum (ceN m c) n)
  ∧ (∀ (b : Fin 2) (k : Fin 8), (outsAt0 m c n hn).2.2.2.2.2.1 (ix2 b k) = runSum (interN m c b k) n)
  ∧ (∀ (b : Fin 2) (k : Fin 8), (outsAt0 m c n hn).2.2.2.2.2.2.1 (ix2 b k) = runSum (groundN m c b k) n)
  ∧ (∀ (b : Fin 2) (k : Fin 8), (outsAt0 m c n hn).2.2.2.2.2.2.2 (ix2 b k) = runSum (predN m c b k) n)

theorem carried_first (c : Dev nD) (t : Fin cfg0.N) (h0 : t.val % 16 = 0) : Carried m c t.val t.isLt := by
  have h1 : ¬t.val % 16 = 15 := by omega
  unfold Carried
  rw [outsAt0_A m c t h0 h1]
  dsimp only
  refine ⟨fun u u' => ?_, fun b k => ?_, fun b k => ?_, fun b k => ?_⟩
  · rw [scratch0_first, pay13_apply, pay6_apply, pay11_apply, zero_add, runSum_first _ h0]
    unfold ceN; rw [dif_pos t.isLt]
  · rw [scratch1_first, pay14_apply, pay7_apply, zero_add, runSum_first _ h0]
    unfold interN; rw [dif_pos t.isLt]
  · rw [scratch2_first, pay15_apply, pay8_apply, zero_add, runSum_first _ h0]
    unfold groundN; rw [dif_pos t.isLt]
  · rw [scratch3_first, pay1_eq, pay16_apply, pay9_apply, zero_add, runSum_first _ h0]
    unfold predN; rw [dif_pos t.isLt]

theorem carried_next (c : Dev nD) (t : Fin cfg0.N) (h0 : ¬t.val % 16 = 0)
    (ih : Carried m c (t.val - 1) (Nat.lt_of_le_of_lt (Nat.sub_le _ _) t.isLt)) : Carried m c t.val t.isLt := by
  unfold Carried at ih ⊢
  obtain ⟨i0, i1, i2, i3⟩ := ih
  by_cases h1 : t.val % 16 = 15
  · rw [outsAt0_C m c t h0 h1]
    dsimp only
    refine ⟨fun u u' => ?_, fun b k => ?_, fun b k => ?_, fun b k => ?_⟩
    · rw [scratch0_last, pay13_apply, pay11_apply, i0 u u', runSum_next _ h0]
      unfold ceN; rw [dif_pos t.isLt]
    · rw [scratch1_last, pay14_apply, i1 b k, runSum_next _ h0]
      unfold interN; rw [dif_pos t.isLt]
    · rw [scratch2_last, pay15_apply, i2 b k, runSum_next _ h0]
      unfold groundN; rw [dif_pos t.isLt]
    · rw [scratch3_last, pay1_eq, pay16_apply, i3 b k, runSum_next _ h0]
      unfold predN; rw [dif_pos t.isLt]
  · rw [outsAt0_B m c t h0 h1]
    dsimp only
    refine ⟨fun u u' => ?_, fun b k => ?_, fun b k => ?_, fun b k => ?_⟩
    · rw [scratch0_middle, pay13_apply, pay11_apply, i0 u u', runSum_next _ h0]
      unfold ceN; rw [dif_pos t.isLt]
    · rw [scratch1_middle, pay14_apply, i1 b k, runSum_next _ h0]
      unfold interN; rw [dif_pos t.isLt]
    · rw [scratch2_middle, pay15_apply, i2 b k, runSum_next _ h0]
      unfold groundN; rw [dif_pos t.isLt]
    · rw [scratch3_middle, pay1_eq, pay16_apply, i3 b k, runSum_next _ h0]
      unfold predN; rw [dif_pos t.isLt]

/-- By induction on the tile: the carried values are the running sums. -/
theorem carried (c : Dev nD) : ∀ (n : ℕ) (hn : n < cfg0.N), Carried m c n hn
  | 0, hn => carried_first m c ⟨0, hn⟩ rfl
  | n + 1, hn => by
    by_cases h0 : (n + 1) % 16 = 0
    · exact carried_first m c ⟨n + 1, hn⟩ h0
    · exact carried_next m c ⟨n + 1, hn⟩ h0 (carried c n (Nat.lt_of_succ_lt hn))

/-- At a shard's last tile the four values written out are the running sums there, i.e. the shard's totals. -/
theorem written (c : Dev nD) (t : Fin cfg0.N) (h1 : t.val % 16 = 15) :
    (∀ u0 u1 u2 : Fin 1, (outsAt0 m c t.val t.isLt).1 (ix3 u0 u1 u2) = runSum (ceN m c) t.val)
    ∧ (∀ (u : Fin 1) (b : Fin 2) (k : Fin 8), (outsAt0 m c t.val t.isLt).2.1 (ix3 u b k) = runSum (interN m c b k) t.val)
    ∧ (∀ (u : Fin 1) (b : Fin 2) (k : Fin 8), (outsAt0 m c t.val t.isLt).2.2.1 (ix3 u b k) = runSum (groundN m c b k) t.val)
    ∧ (∀ (u : Fin 1) (b : Fin 2) (k : Fin 8), (outsAt0 m c t.val t.isLt).2.2.2.1 (ix3 u b k) = runSum (predN m c b k) t.val) := by
  have h0 : ¬t.val % 16 = 0 := by omega
  obtain ⟨i0, i1, i2, i3⟩ := carried m c (t.val - 1) (Nat.lt_of_le_of_lt (Nat.sub_le _ _) t.isLt)
  rw [outsAt0_C m c t h0 h1]
  dsimp only
  refine ⟨fun u0 u1 u2 => ?_, fun u b k => ?_, fun u b k => ?_, fun u b k => ?_⟩
  · rw [out2_last, pay2_apply, pay13_apply, pay11_apply, i0 u1 u2, runSum_next _ h0]
    unfold ceN; rw [dif_pos t.isLt]
  · rw [out3_last, pay3_apply, pay14_apply, i1 b k, runSum_next _ h0]
    unfold interN; rw [dif_pos t.isLt]
  · rw [out4_last, pay4_apply, pay15_apply, i2 b k, runSum_next _ h0]
    unfold groundN; rw [dif_pos t.isLt]
  · rw [out5_last, pay5_apply, pay1_eq, pay16_apply, i3 b k, runSum_next _ h0]
    unfold predN; rw [dif_pos t.isLt]

/-! ## The four result arrays after the run -/

/-- The output windows' block index is the shard number. -/
theorem idx_out : ∀ t : Fin cfg0.N,
    win0_2.index t (0 : Fin 3) = t.val / 16 ∧ win0_2.index t (1 : Fin 3) = 0 ∧ win0_2.index t (2 : Fin 3) = 0
    ∧ win0_3.index t (0 : Fin 3) = t.val / 16 ∧ win0_3.index t (1 : Fin 3) = 0 ∧ win0_3.index t (2 : Fin 3) = 0
    ∧ win0_4.index t (0 : Fin 3) = t.val / 16 ∧ win0_4.index t (1 : Fin 3) = 0 ∧ win0_4.index t (2 : Fin 3) = 0
    ∧ win0_5.index t (0 : Fin 3) = t.val / 16 ∧ win0_5.index t (1 : Fin 3) = 0 ∧ win0_5.index t (2 : Fin 3) = 0 :=
  (by decide +kernel : ∀ t : Fin grid0.N, _)

/-- Shard s's totals, as arrays indexed (s, ·, ·). -/
def ceTotals (c : Dev nD) : Vec Ideal S2x1x1 .f32 := fun i => runSum (ceN m c) (16 * (i 0).val + 15)
def interTotals (c : Dev nD) : Vec Ideal S2x2x8 .f32 := fun i => runSum (interN m c (i 1) (i 2)) (16 * (i 0).val + 15)
def groundTotals (c : Dev nD) : Vec Ideal S2x2x8 .f32 := fun i => runSum (groundN m c (i 1) (i 2)) (16 * (i 0).val + 15)
def predTotals (c : Dev nD) : Vec Ideal S2x2x8 .f32 := fun i => runSum (predN m c (i 1) (i 2)) (16 * (i 0).val + 15)

/-- The last tile of shard s. -/
def lastTile (s : Fin 2) : Fin cfg0.N := ⟨16 * s.val + 15, by rw [N32]; have := s.isLt; omega⟩

theorem flushed2_eq (c : Dev nD) (t : Fin cfg0.N) (hf : (cfg0.win 2).flush t = true) :
    (dats m 0 c).flushed 2 t = ((cfg0.win 2).blk t).view.read (Elt Ideal) (ceTotals m c) := by
  have h15 := (flush0_2 t).mp hf
  obtain ⟨e0, e1, e2, -⟩ := idx_out t
  show (cfg0.win 2).cut (grid0.coords t) ((dats m 0 c).after 2 t) = _
  rw [after0_2]
  funext y
  obtain ⟨u0, u1, u2, rfl⟩ : ∃ u0 u1 u2 : Fin 1, y = ix3 u0 u1 u2 := ⟨y 0, y 1, y 2, eq_ix3 y⟩
  show (outsAt0 m c t.val t.isLt).1 (ix3 u0 u1 u2) = ceTotals m c (((cfg0.win 2).blk t).view.emb (ix3 u0 u1 u2))
  rw [(written m c t h15).1]
  unfold ceTotals
  congr 1
  show t.val = 16 * (win0_2.index t (0 : Fin 3) * 1 + 1 * u0.val) + 15
  have := u0.isLt
  omega

theorem cover2 (c : Dev nD) (i : S2x1x1.Idx) :
    ∃ t : Fin cfg0.N, (cfg0.win 2).flush t = true ∧ i ∈ ((cfg0.win 2).blk t).view.set := by
  have hi0 : (i 0).val < 2 := (i 0).isLt; have hi1 : (i 1).val < 1 := (i 1).isLt; have hi2 : (i 2).val < 1 := (i 2).isLt
  refine ⟨lastTile (i 0), (flush0_2 _).mpr (by show (16 * (i 0).val + 15) % 16 = 15; omega), ?_⟩
  obtain ⟨e0, e1, e2, -⟩ := idx_out (lastTile (i 0))
  have ev : (lastTile (i 0)).val = 16 * (i 0).val + 15 := rfl
  show i ∈ ((View.whole main_v0_0).slice (win0_2.rect (lastTile (i 0)))).set
  rw [View.set_slice_whole, Rect.mem_set_unit]
  intro a
  match a with
  | ⟨0, _⟩ => show win0_2.index (lastTile (i 0)) (0 : Fin 3) * 1 ≤ (i 0).val ∧ (i 0).val < win0_2.index (lastTile (i 0)) (0 : Fin 3) * 1 + 1; omega
  | ⟨1, _⟩ => show win0_2.index (lastTile (i 0)) (1 : Fin 3) * 1 ≤ (i 1).val ∧ (i 1).val < win0_2.index (lastTile (i 0)) (1 : Fin 3) * 1 + 1; omega
  | ⟨2, _⟩ => show win0_2.index (lastTile (i 0)) (2 : Fin 3) * 1 ≤ (i 2).val ∧ (i 2).val < win0_2.index (lastTile (i 0)) (2 : Fin 3) * 1 + 1; omega

/-- The cross-entropy result array holds the two shards' totals of the picks. -/
theorem final2 (c : Dev nD) : (dats m 0 c).arrAt 2 cfg0.N = ceTotals m c :=
  (dats m 0 c).arrAt_eq_of_cover 2 (ceTotals m c) (flushed2_eq m c) (cover2 c)

theorem flushed3_eq (c : Dev nD) (t : Fin cfg0.N) (hf : (cfg0.win 3).flush t = true) :
    (dats m 0 c).flushed 3 t = ((cfg0.win 3).blk t).view.read (Elt Ideal) (interTotals m c) := by
  have h15 := (flush0_3 t).mp hf
  obtain ⟨-, -, -, f0, f1, f2, -⟩ := idx_out t
  show (cfg0.win 3).cut (grid0.coords t) ((dats m 0 c).after 3 t) = _
  rw [after0_3]
  funext y
  obtain ⟨u, b, k, rfl⟩ : ∃ (u : Fin 1) (b : Fin 2) (k : Fin 8), y = ix3 u b k := ⟨y 0, y 1, y 2, eq_ix3 y⟩
  have hu := u.isLt
  have hs : t.val / 16 < 2 := by have := lt_of_lt_of_eq t.isLt N32; omega
  have he : ((cfg0.win 3).blk t).view.emb (ix3 u b k) = ix3 (⟨t.val / 16, hs⟩ : Fin 2) b k := by
    funext a; apply Fin.ext
    match a with
    | ⟨0, _⟩ => show win0_3.index t (0 : Fin 3) * 1 + 1 * u.val = t.val / 16; omega
    | ⟨1, _⟩ => show win0_3.index t (1 : Fin 3) * 2 + 1 * b.val = b.val; omega
    | ⟨2, _⟩ => show win0_3.index t (2 : Fin 3) * 8 + 1 * k.val = k.val; omega
  show (outsAt0 m c t.val t.isLt).2.1 (ix3 u b k) = interTotals m c (((cfg0.win 3).blk t).view.emb (ix3 u b k))
  rw [he, (written m c t h15).2.1]
  unfold interTotals
  show runSum (interN m c b k) t.val = runSum (interN m c b k) (16 * (t.val / 16) + 15)
  congr 1
  omega

theorem cover3 (c : Dev nD) (i : S2x2x8.Idx) :
    ∃ t : Fin cfg0.N, (cfg0.win 3).flush t = true ∧ i ∈ ((cfg0.win 3).blk t).view.set := by
  have hi0 : (i 0).val < 2 := (i 0).isLt; have hi1 : (i 1).val < 2 := (i 1).isLt; have hi2 : (i 2).val < 8 := (i 2).isLt
  refine ⟨lastTile (i 0), (flush0_3 _).mpr (by show (16 * (i 0).val + 15) % 16 = 15; omega), ?_⟩
  obtain ⟨-, -, -, f0, f1, f2, -⟩ := idx_out (lastTile (i 0))
  have ev : (lastTile (i 0)).val = 16 * (i 0).val + 15 := rfl
  show i ∈ ((View.whole main_v0_1).slice (win0_3.rect (lastTile (i 0)))).set
  rw [View.set_slice_whole, Rect.mem_set_unit]
  intro a
  match a with
  | ⟨0, _⟩ => show win0_3.index (lastTile (i 0)) (0 : Fin 3) * 1 ≤ (i 0).val ∧ (i 0).val < win0_3.index (lastTile (i 0)) (0 : Fin 3) * 1 + 1; omega
  | ⟨1, _⟩ => show win0_3.index (lastTile (i 0)) (1 : Fin 3) * 2 ≤ (i 1).val ∧ (i 1).val < win0_3.index (lastTile (i 0)) (1 : Fin 3) * 2 + 2; omega
  | ⟨2, _⟩ => show win0_3.index (lastTile (i 0)) (2 : Fin 3) * 8 ≤ (i 2).val ∧ (i 2).val < win0_3.index (lastTile (i 0)) (2 : Fin 3) * 8 + 8; omega

theorem final3 (c : Dev nD) : (dats m 0 c).arrAt 3 cfg0.N = interTotals m c :=
  (dats m 0 c).arrAt_eq_of_cover 3 (interTotals m c) (flushed3_eq m c) (cover3 c)

theorem flushed4_eq (c : Dev nD) (t : Fin cfg0.N) (hf : (cfg0.win 4).flush t = true) :
    (dats m 0 c).flushed 4 t = ((cfg0.win 4).blk t).view.read (Elt Ideal) (groundTotals m c) := by
  have h15 := (flush0_4 t).mp hf
  obtain ⟨-, -, -, -, -, -, f0, f1, f2, -⟩ := idx_out t
  show (cfg0.win 4).cut (grid0.coords t) ((dats m 0 c).after 4 t) = _
  rw [after0_4]
  funext y
  obtain ⟨u, b, k, rfl⟩ : ∃ (u : Fin 1) (b : Fin 2) (k : Fin 8), y = ix3 u b k := ⟨y 0, y 1, y 2, eq_ix3 y⟩
  have hu := u.isLt
  have hs : t.val / 16 < 2 := by have := lt_of_lt_of_eq t.isLt N32; omega
  have he : ((cfg0.win 4).blk t).view.emb (ix3 u b k) = ix3 (⟨t.val / 16, hs⟩ : Fin 2) b k := by
    funext a; apply Fin.ext
    match a with
    | ⟨0, _⟩ => show win0_4.index t (0 : Fin 3) * 1 + 1 * u.val = t.val / 16; omega
    | ⟨1, _⟩ => show win0_4.index t (1 : Fin 3) * 2 + 1 * b.val = b.val; omega
    | ⟨2, _⟩ => show win0_4.index t (2 : Fin 3) * 8 + 1 * k.val = k.val; omega
  show (outsAt0 m c t.val t.isLt).2.2.1 (ix3 u b k) = groundTotals m c (((cfg0.win 4).blk t).view.emb (ix3 u b k))
  rw [he, (written m c t h15).2.2.1]
  unfold groundTotals
  show runSum (groundN m c b k) t.val = runSum (groundN m c b k) (16 * (t.val / 16) + 15)
  congr 1
  omega

theorem cover4 (c : Dev nD) (i : S2x2x8.Idx) :
    ∃ t : Fin cfg0.N, (cfg0.win 4).flush t = true ∧ i ∈ ((cfg0.win 4).blk t).view.set := by
  have hi0 : (i 0).val < 2 := (i 0).isLt; have hi1 : (i 1).val < 2 := (i 1).isLt; have hi2 : (i 2).val < 8 := (i 2).isLt
  refine ⟨lastTile (i 0), (flush0_4 _).mpr (by show (16 * (i 0).val + 15) % 16 = 15; omega), ?_⟩
  obtain ⟨-, -, -, -, -, -, f0, f1, f2, -⟩ := idx_out (lastTile (i 0))
  have ev : (lastTile (i 0)).val = 16 * (i 0).val + 15 := rfl
  show i ∈ ((View.whole main_v0_2).slice (win0_4.rect (lastTile (i 0)))).set
  rw [View.set_slice_whole, Rect.mem_set_unit]
  intro a
  match a with
  | ⟨0, _⟩ => show win0_4.index (lastTile (i 0)) (0 : Fin 3) * 1 ≤ (i 0).val ∧ (i 0).val < win0_4.index (lastTile (i 0)) (0 : Fin 3) * 1 + 1; omega
  | ⟨1, _⟩ => show win0_4.index (lastTile (i 0)) (1 : Fin 3) * 2 ≤ (i 1).val ∧ (i 1).val < win0_4.index (lastTile (i 0)) (1 : Fin 3) * 2 + 2; omega
  | ⟨2, _⟩ => show win0_4.index (lastTile (i 0)) (2 : Fin 3) * 8 ≤ (i 2).val ∧ (i 2).val < win0_4.index (lastTile (i 0)) (2 : Fin 3) * 8 + 8; omega

theorem final4 (c : Dev nD) : (dats m 0 c).arrAt 4 cfg0.N = groundTotals m c :=
  (dats m 0 c).arrAt_eq_of_cover 4 (groundTotals m c) (flushed4_eq m c) (cover4 c)

theorem flushed5_eq (c : Dev nD) (t : Fin cfg0.N) (hf : (cfg0.win 5).flush t = true) :
    (dats m 0 c).flushed 5 t = ((cfg0.win 5).blk t).view.read (Elt Ideal) (predTotals m c) := by
  have h15 := (flush0_5 t).mp hf
  obtain ⟨-, -, -, -, -, -, -, -, -, f0, f1, f2⟩ := idx_out t
  show (cfg0.win 5).cut (grid0.coords t) ((dats m 0 c).after 5 t) = _
  rw [after0_5]
  funext y
  obtain ⟨u, b, k, rfl⟩ : ∃ (u : Fin 1) (b : Fin 2) (k : Fin 8), y = ix3 u b k := ⟨y 0, y 1, y 2, eq_ix3 y⟩
  have hu := u.isLt
  have hs : t.val / 16 < 2 := by have := lt_of_lt_of_eq t.isLt N32; omega
  have he : ((cfg0.win 5).blk t).view.emb (ix3 u b k) = ix3 (⟨t.val / 16, hs⟩ : Fin 2) b k := by
    funext a; apply Fin.ext
    match a with
    | ⟨0, _⟩ => show win0_5.index t (0 : Fin 3) * 1 + 1 * u.val = t.val / 16; omega
    | ⟨1, _⟩ => show win0_5.index t (1 : Fin 3) * 2 + 1 * b.val = b.val; omega
    | ⟨2, _⟩ => show win0_5.index t (2 : Fin 3) * 8 + 1 * k.val = k.val; omega
  show (outsAt0 m c t.val t.isLt).2.2.2.1 (ix3 u b k) = predTotals m c (((cfg0.win 5).blk t).view.emb (ix3 u b k))
  rw [he, (written m c t h15).2.2.2]
  unfold predTotals
  show runSum (predN m c b k) t.val = runSum (predN m c b k) (16 * (t.val / 16) + 15)
  congr 1
  omega

theorem cover5 (c : Dev nD) (i : S2x2x8.Idx) :
    ∃ t : Fin cfg0.N, (cfg0.win 5).flush t = true ∧ i ∈ ((cfg0.win 5).blk t).view.set := by
  have hi0 : (i 0).val < 2 := (i 0).isLt; have hi1 : (i 1).val < 2 := (i 1).isLt; have hi2 : (i 2).val < 8 := (i 2).isLt
  refine ⟨lastTile (i 0), (flush0_5 _).mpr (by show (16 * (i 0).val + 15) % 16 = 15; omega), ?_⟩
  obtain ⟨-, -, -, -, -, -, -, -, -, f0, f1, f2⟩ := idx_out (lastTile (i 0))
  have ev : (lastTile (i 0)).val = 16 * (i 0).val + 15 := rfl
  show i ∈ ((View.whole main_v0_3).slice (win0_5.rect (lastTile (i 0)))).set
  rw [View.set_slice_whole, Rect.mem_set_unit]
  intro a
  match a with
  | ⟨0, _⟩ => show win0_5.index (lastTile (i 0)) (0 : Fin 3) * 1 ≤ (i 0).val ∧ (i 0).val < win0_5.index (lastTile (i 0)) (0 : Fin 3) * 1 + 1; omega
  | ⟨1, _⟩ => show win0_5.index (lastTile (i 0)) (1 : Fin 3) * 2 ≤ (i 1).val ∧ (i 1).val < win0_5.index (lastTile (i 0)) (1 : Fin 3) * 2 + 2; omega
  | ⟨2, _⟩ => show win0_5.index (lastTile (i 0)) (2 : Fin 3) * 8 ≤ (i 2).val ∧ (i 2).val < win0_5.index (lastTile (i 0)) (2 : Fin 3) * 8 + 8; omega

theorem final5 (c : Dev nD) : (dats m 0 c).arrAt 5 cfg0.N = predTotals m c :=
  (dats m 0 c).arrAt_eq_of_cover 5 (predTotals m c) (flushed5_eq m c) (cover5 c)

/-! ## The totals are the shards' sums of the loss's terms over the argument arrays -/

theorem tile_lt (s : Fin 2) (k : Fin 16) : 16 * s.val + k.val < cfg0.N := by
  rw [N32]; have := s.isLt; have := k.isLt; omega

/-- Row r of tile 16 s + k is row (s·16 + k)·4 + r. -/
theorem tileRow_eq (s : Fin 2) (k : Fin 16) (r : Fin 4) (h : 16 * s.val + k.val < cfg0.N) :
    tileRow ⟨16 * s.val + k.val, h⟩ r = rowOf s k r :=
  Fin.ext (by show 4 * (16 * s.val + k.val) + r.val = (s.val * 16 + k.val) * 4 + r.val; omega)

theorem ceTotals_eq (c : Dev nD) (s : Fin 2) (u u' : Fin 1) :
    ceTotals m c (ix3 s u u') = Cert.DiceCE.ceShard (predArr m c) (labArr m c) s := by
  unfold ceTotals
  show runSum (ceN m c) (16 * s.val + 15) = _
  rw [runSum_last]
  unfold Cert.DiceCE.ceShard
  refine Finset.sum_congr rfl fun k _ => ?_
  unfold ceN
  rw [dif_pos (tile_lt s k)]
  unfold cePart Cert.DiceCE.picked hotB Cert.DiceCE.hot Cert.DiceCE.logpSum Cert.DiceCE.logp
  simp only [lblk_apply, xblk_apply, tileRow_eq]

theorem interTotals_eq (c : Dev nD) (s b : Fin 2) (k : Fin 8) :
    interTotals m c (ix3 s b k) = Cert.DiceCE.interShard (predArr m c) (labArr m c) s b k := by
  unfold interTotals
  show runSum (interN m c b k) (16 * s.val + 15) = _
  rw [runSum_last]
  unfold Cert.DiceCE.interShard
  refine Finset.sum_congr rfl fun j _ => ?_
  unfold interN
  rw [dif_pos (tile_lt s j)]
  unfold interPart hotB Cert.DiceCE.hot
  simp only [lblk_apply, xblk_apply, tileRow_eq]

theorem groundTotals_eq (c : Dev nD) (s b : Fin 2) (k : Fin 8) :
    groundTotals m c (ix3 s b k) = Cert.DiceCE.groundShard (labArr m c) s b k := by
  unfold groundTotals
  show runSum (groundN m c b k) (16 * s.val + 15) = _
  rw [runSum_last]
  unfold Cert.DiceCE.groundShard
  refine Finset.sum_congr rfl fun j _ => ?_
  unfold groundN
  rw [dif_pos (tile_lt s j)]
  unfold groundPart hotB Cert.DiceCE.hot
  simp only [lblk_apply, tileRow_eq]

theorem predTotals_eq (c : Dev nD) (s b : Fin 2) (k : Fin 8) :
    predTotals m c (ix3 s b k) = Cert.DiceCE.predShard (predArr m c) s b k := by
  unfold predTotals
  show runSum (predN m c b k) (16 * s.val + 15) = _
  rw [runSum_last]
  unfold Cert.DiceCE.predShard
  refine Finset.sum_congr rfl fun j _ => ?_
  unfold predN
  rw [dif_pos (tile_lt s j)]
  unfold predPart
  simp only [xblk_apply, tileRow_eq]

end Cert.KernelIdeal.Accum
end
-- ==== Proof.HostTail.lean ====
/-
  The host operations after the region, as one term of the region's four result arrays, and its value.

  The region leaves per shard s the total of the cross-entropy picks (an array of shape [2,1,1]) and per shard and
  (b, c) the three dice sums (arrays of shape [2,2,8]). The operations after it add the shard totals, and form
  1·(−(Σ_s ce_s)/8388608) + 1·((Σ_{b,c} (1 − (2·Σ_s inter_s + smooth)/(Σ_s ground_s + Σ_s pred_s + smooth)))/16).
  When the four arrays hold the shard totals of ShardSpec, that number is the loss of LossSpec: the sums over the
  shard axis, then over the tiles of a shard and the rows of a tile, visit every row once.
-/
import proofs.«424769_j9423158247527_4_alg».proof.Proof.Gen.KernelIdeal.Frame
import proofs.«424769_j9423158247527_4_alg».proof.Proof.ShardSpec
import Idealize.ShloMosaic.PureOps.Ideal.Laws
import Idealize.ShloMosaic.Lib.ValueIdx

noncomputable section

namespace Cert.KernelIdeal.Tail

open Idealize.ShloMosaic Idealize.ShloMosaic.TcCoe Idealize.ShloMosaic.ValueIdx
open Cert.KernelIdeal Cert.KernelIdeal.Gen
open scoped BigOperators

/-! ## The operations composed -/

/-- The operations after the region, composed: the result scalar as a function of the region's four result arrays. -/
def tailTerm (A0 : FVec Ideal S2x1x1 .f32) (A1 A2 A3 : FVec Ideal S2x2x8 .f32) : FVec Ideal S_ .f32 :=
  addf
    (mulf (constant (F := Ideal) S_ .f32 0x3F800000#32)
      (Host.divf
        (Host.negf (Host.reduceAdd A0 (constant (F := Ideal) S_ .f32 0x00000000#32) reducesTo_S2x1x1_S_d0_1_2 h_S_))
        (constant (F := Ideal) S_ .f32 0x4B000000#32)))
    (mulf (constant (F := Ideal) S_ .f32 0x3F800000#32)
      (Host.divf
        (Host.reduceAdd
          (subf (broadcastInDim S2x8 ![] bcast_S_S2x8 (constant (F := Ideal) S_ .f32 0x3F800000#32))
            (Host.divf
              (addf
                (mulf (broadcastInDim S2x8 ![] bcast_S_S2x8 (constant (F := Ideal) S_ .f32 0x40000000#32))
                  (Host.reduceAdd A1 (constant (F := Ideal) S_ .f32 0x00000000#32) reducesTo_S2x2x8_S2x8_d0 h_S_))
                (broadcastInDim S2x8 ![] bcast_S_S2x8 (constant (F := Ideal) S_ .f32 0x3727C5AC#32)))
              (addf
                (addf
                  (Host.reduceAdd A2 (constant (F := Ideal) S_ .f32 0x00000000#32) reducesTo_S2x2x8_S2x8_d0 h_S_)
                  (Host.reduceAdd A3 (constant (F := Ideal) S_ .f32 0x00000000#32) reducesTo_S2x2x8_S2x8_d0 h_S_))
                (broadcastInDim S2x8 ![] bcast_S_S2x8 (constant (F := Ideal) S_ .f32 0x3727C5AC#32)))))
          (constant (F := Ideal) S_ .f32 0x00000000#32) reducesTo_S2x8_S_d0_1 h_S_)
        (constant (F := Ideal) S_ .f32 0x41800000#32)))

/-- The result buffer after the run is that term of the four arrays the region leaves. -/
theorem tail_eq (m : (ℓ : Loc nD τ sig) → Buf (Elt Ideal) ℓ) (c : Dev nD) :
    Pipeline.afterTail₀ cfgs (Gen.dats m) 0 (Gen.V0 m) [Gen.hostOps1] c main_v21
      = tailTerm ((Gen.dats m 0 c).arrAt 2 cfg0.N) ((Gen.dats m 0 c).arrAt 3 cfg0.N)
          ((Gen.dats m 0 c).arrAt 4 cfg0.N) ((Gen.dats m 0 c).arrAt 5 cfg0.N) := by
  -- the region's arrays, read back out of the contents it leaves
  have e0 : Pipeline.withArrays (cfgs 0).spec c (V0 m c) (fun w => (dats m 0 c).arrAt w (cfgs 0).N) (Proc.devRef .tc main_v0_0)
      = (dats m 0 c).arrAt 2 cfg0.N := Pipeline.withArrays_arr spec0 launch0.win.arr_inj c _ _ 2
  have e1 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  have e2 : Pipeline.withArrays (cfgs 0).spec c (V0 m c) (fun w => (dats m 0 c).arrAt w (cfgs 0).N) (Proc.devRef .tc main_v0_2)
      = (dats m 0 c).arrAt 4 cfg0.N := Pipeline.withArrays_arr spec0 launch0.win.arr_inj c _ _ 4
  have e3 : Pipeline.withArrays (cfgs 0).spec c (V0 m c) (fun w => (dats m 0 c).arrAt w (cfgs 0).N) (Proc.devRef .tc main_v0_3)
      = (dats m 0 c).arrAt 5 cfg0.N := Pipeline.withArrays_arr spec0 launch0.win.arr_inj c _ _ 5
  unfold Pipeline.afterTail₀
  simp only [List.flatten_cons, List.flatten_nil, List.append_nil]
  -- each operation's result at its own buffer is its function of its operands' contents
  after_results_simp
  rw [e0, e1, e2, e3]
  rfl

/-! ## The reductions read as sums -/

/-- An index of the [2,1,1] array is its shard coordinate: the other two axes have one position. -/
def shardEquiv : S2x1x1.Idx ≃ Fin 2 where
  toFun i := i 0
  invFun s := ix3 s (0 : Fin 1) (0 : Fin 1)
  left_inv i := by
    funext a
    match a with
    | ⟨0, _⟩ => rfl
    | ⟨1, _⟩ => exact Subsingleton.elim (α := Fin 1) _ _
    | ⟨2, _⟩ => exact Subsingleton.elim (α := Fin 1) _ _
  right_inv _ := rfl

/-- The sum of the [2,1,1] array over all its axes, from the zero word: the sum over the shards. -/
theorem reduce_shards (A0 : S2x1x1.Idx → EReal) (j : S_.Idx) :
    Ideal.hostReduceAdd reducesTo_S2x1x1_S_d0_1_2 A0 (Ideal.ofBits .f32 0x00000000#32) j
      = ∑ s : Fin 2, A0 (ix3 s 0 0) := by
  rw [Ideal.hostReduceAdd_total reducesTo_S2x1x1_S_d0_1_2 (fun b => b.elim0) A0 _ j, Ideal.ofBits_zero_f32, zero_add]
  exact (Equiv.sum_comp shardEquiv.symm A0).symm

/-- The sum of a [2,2,8] array over its shard axis, from the zero word, at (b, c). -/
theorem reduce_shard_axis (A : S2x2x8.Idx → EReal) (b : Fin 2) (c : Fin 8) :
    Ideal.hostReduceAdd reducesTo_S2x2x8_S2x8_d0 A (Ideal.ofBits .f32 0x00000000#32) (ix2 b c)
      = ∑ s : Fin 2, A (ix3 s b c) := by
  have h : S2x2x8.Reduces [0] S2x8 := by decide
  rw [Ideal.hostReduceAdd_single reducesTo_S2x2x8_S2x8_d0 h A _ (ix2 b c), Ideal.ofBits_zero_f32, zero_add]
  show ∑ s : Fin 2, A (h.lift (ix2 b c) s) = _
  -- the index over (b, c) with s inserted on the dropped axis is (s, b, c)
  refine Finset.sum_congr rfl fun s _ => congrArg A ?_
  funext a
  match a with
  | ⟨0, _⟩ => rfl
  | ⟨1, _⟩ => rfl
  | ⟨2, _⟩ => rfl

/-- The sum of a [2,8] array over both axes, from the zero word: the double sum over (b, c). -/
theorem reduce_all (D : S2x8.Idx → EReal) (j : S_.Idx) :
    Ideal.hostReduceAdd reducesTo_S2x8_S_d0_1 D (Ideal.ofBits .f32 0x00000000#32) j
      = ∑ b : Fin 2, ∑ c : Fin 8, D (ix2 b c) := by
  rw [Ideal.hostReduceAdd_total reducesTo_S2x8_S_d0_1 (fun b => b.elim0) D _ j, Ideal.ofBits_zero_f32, zero_add]
  exact sum_idx2 D

/-- The term at its one index, every operation read at the ideal values. -/
theorem tailTerm_apply (A0 : FVec Ideal S2x1x1 .f32) (A1 A2 A3 : FVec Ideal S2x2x8 .f32) (j : S_.Idx) :
    tailTerm A0 A1 A2 A3 j =
      Ideal.ofBits .f32 0x3F800000#32
          * Ideal.div (-(Ideal.hostReduceAdd reducesTo_S2x1x1_S_d0_1_2 A0 (Ideal.ofBits .f32 0x00000000#32) j))
              (Ideal.ofBits .f32 0x4B000000#32)
        + Ideal.ofBits .f32 0x3F800000#32
          * Ideal.div (Ideal.hostReduceAdd reducesTo_S2x8_S_d0_1
              (fun i => Ideal.ofBits .f32 0x3F800000#32 - Ideal.div
                (Ideal.ofBits .f32 0x40000000#32 * Ideal.hostReduceAdd reducesTo_S2x2x8_S2x8_d0 A1 (Ideal.ofBits .f32 0x00000000#32) i
                  + Ideal.ofBits .f32 0x3727C5AC#32)
                (Ideal.hostReduceAdd reducesTo_S2x2x8_S2x8_d0 A2 (Ideal.ofBits .f32 0x00000000#32) i
                  + Ideal.hostReduceAdd reducesTo_S2x2x8_S2x8_d0 A3 (Ideal.ofBits .f32 0x00000000#32) i
                  + Ideal.ofBits .f32 0x3727C5AC#32))
              (Ideal.ofBits .f32 0x00000000#32) j) (Ideal.ofBits .f32 0x41800000#32) := rfl

/-! ## The shard totals added are the whole sums -/

section Shards

open Cert.DiceCE Cert.SumLaws

variable (P : PredIdx → EReal) (Tg : LabIdx → BitVec 32)

/-- The two shards' pick totals make the sum of the picks over every batch entry and voxel. -/
theorem ce_shards : ∑ s : Fin 2, ceShard P Tg s = ceSum P Tg := by
  unfold ceShard ceSum
  exact sum_tiles_batch (fun b h => ∑ w : Fin 128, ∑ d : Fin 128, picked P Tg b h w d)

theorem inter_shards (b : Fin 2) (c : Fin 8) : ∑ s : Fin 2, interShard P Tg s b c = inter P Tg b c := by
  unfold interShard inter
  exact sum_tiles (fun h => ∑ w : Fin 128, ∑ d : Fin 128, hot Tg b c h w d * P (ix5 b c h w d))

theorem ground_shards (b : Fin 2) (c : Fin 8) : ∑ s : Fin 2, groundShard Tg s b c = ground Tg b c := by
  unfold groundShard ground
  exact sum_tiles (fun h => ∑ w : Fin 128, ∑ d : Fin 128, hot Tg b c h w d)

theorem pred_shards (b : Fin 2) (c : Fin 8) : ∑ s : Fin 2, predShard P s b c = predSum P b c := by
  unfold predShard predSum
  exact sum_tiles (fun h => ∑ w : Fin 128, ∑ d : Fin 128, P (ix5 b c h w d))

end Shards

/-! ## The value -/

/-- With the four arrays at the shard totals, the operations after the region produce the loss. -/
theorem tailTerm_value (P : Cert.DiceCE.PredIdx → EReal) (Tg : Cert.DiceCE.LabIdx → BitVec 32)
    (A0 : FVec Ideal S2x1x1 .f32) (A1 A2 A3 : FVec Ideal S2x2x8 .f32)
    (h0 : ∀ s : Fin 2, A0 (ix3 s 0 0) = Cert.DiceCE.ceShard P Tg s)
    (h1 : ∀ (s b : Fin 2) (c : Fin 8), A1 (ix3 s b c) = Cert.DiceCE.interShard P Tg s b c)
    (h2 : ∀ (s b : Fin 2) (c : Fin 8), A2 (ix3 s b c) = Cert.DiceCE.groundShard Tg s b c)
    (h3 : ∀ (s b : Fin 2) (c : Fin 8), A3 (ix3 s b c) = Cert.DiceCE.predShard P s b c) :
    tailTerm A0 A1 A2 A3 = fun _ => Cert.DiceCE.loss P Tg := by
  funext j
  refine (tailTerm_apply A0 A1 A2 A3 j).trans ?_
  -- the three kinds of reduction are sums over the shards, and over (b, c)
  rw [reduce_shards A0 j, reduce_all _ j]
  simp only [reduce_shard_axis, h0, h1, h2, h3]
  -- the shard totals added are the whole sums
  simp only [ce_shards, inter_shards, ground_shards, pred_shards]
  rfl

end Cert.KernelIdeal.Tail
-- ==== Proof.KernelLoss.lean ====
/-
  The idealized kernel program computes the loss.

  Its run leaves the four result arrays at the shards' totals (ShardTotals), the operations after the region add the two
  shards and form the loss (HostTail), and both argument arrays end as they began.
-/
import proofs.«424769_j9423158247527_4_alg».proof.Proof.Gen.KernelIdeal.Frame
import proofs.«424769_j9423158247527_4_alg».proof.Proof.ShardTotals
import proofs.«424769_j9423158247527_4_alg».proof.Proof.HostTail
import proofs.«424769_j9423158247527_4_alg».proof.Proof.LossSpec

noncomputable section

open Idealize.ShloMosaic Idealize.ShloMosaic.TcCoe Idealize.SL.Sem Idealize.ShloMosaic.ValueIdx

namespace Cert.KernelIdeal.Final

open Cert.KernelIdeal Cert.KernelIdeal.Gen Cert.KernelIdeal.Accum

/-- The result buffer is none of the region's arrays. -/
theorem result_mem : main_v21 ∈ Pipeline.restRefs sig (cfgs 0).spec :=
  Pipeline.mem_restRefs_of main_v21 rfl (fun w => by fin_cases w <;> decide)

/-- What the operations after the region leave in the result buffer: the loss of the two argument arrays. -/
theorem result_value (m : (ℓ : Loc nD τ sig) → Buf (Elt Ideal) ℓ) (c : Dev nD) :
    Pipeline.afterTail₀ cfgs (dats m) 0 (V0 m) [hostOps1] c main_v21
      = fun _ => Cert.DiceCE.loss (m ((c.tc : Thread nD τ).loc main_arg0)) (m ((c.tc : Thread nD τ).loc main_arg1)) := by
  rw [Tail.tail_eq, final2, final3, final4, final5]
  exact Tail.tailTerm_value (predArr m c) (labArr m c) _ _ _ _ (fun s => ceTotals_eq m c s 0 0) (interTotals_eq m c)
    (groundTotals_eq m c) (predTotals_eq m c)

/-- The idealized kernel program's run: its result is the loss of its two argument arrays, which end unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v21)
          = (fun _ => Cert.DiceCE.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v21 result_mem).trans (result_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Final

end
-- ==== Proof.RefLoss.lean ====
/-
  The reference program computes the specified loss.

  Read one operation at a time, the reference is: the log-probabilities summed over the batch axis, gathered along the
  class axis at each voxel's label (guarded by an in-range mask and a wrap of negative indices), summed over every batch
  entry and voxel, divided by 4194304, negated and divided by 2; plus the mean over the 16 (batch, class) pairs of the
  dice terms built from three sums over the voxel axes. Under the label range every label is a class below 8: the wrap and
  the mask do nothing, the gather's clamp is the identity, and the gathered value is the one-hot pick of the specification.
  The two divisions merge into one division by 8388608 for every extended real.
-/
import proofs.«424769_j9423158247527_4_alg».proof.Proof.RefRead
import proofs.«424769_j9423158247527_4_alg».proof.Proof.LossSpec
import Idealize.ShloMosaic.PureOps.Ideal.Laws
import Idealize.ShloMosaic.Lib.ValueIdxRank6
import Idealize.ShloMosaic.Lib.Pipeline.Value
import Idealize.ShloMosaic.Lib.StableHlo.Predicate
import Idealize.ShloMosaic.Lib.ReduceAll

noncomputable section

namespace Cert.RefLoss

open Idealize.ShloMosaic Idealize.ShloMosaic.ValueIdx
open scoped BigOperators

/-! ## Sums over index sets as iterated sums over the coordinates -/

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- A rank-5 index set is the product of its five coordinate ranges. -/
def idxEquiv5 {n0 n1 n2 n3 n4 : Nat} :
    (⟨5, ![n0, n1, n2, n3, n4]⟩ : Shape).Idx ≃ Fin n0 × Fin n1 × Fin n2 × Fin n3 × Fin n4 where
  toFun i := (i 0, i 1, i 2, i 3, i 4)
  invFun p := ix5 p.1 p.2.1 p.2.2.1 p.2.2.2.1 p.2.2.2.2
  left_inv i := (eq_ix5 i).symm
  right_inv _ := rfl

/-- A sum over a rank-5 index set is the fivefold sum over the coordinates. -/
theorem sum_idx5 {M : Type*} [AddCommMonoid M] {n0 n1 n2 n3 n4 : Nat} (f : (⟨5, ![n0, n1, n2, n3, n4]⟩ : Shape).Idx → M) :
    ∑ i, f i = ∑ a : Fin n0, ∑ b : Fin n1, ∑ c : Fin n2, ∑ d : Fin n3, ∑ e : Fin n4, f (ix5 a b c d e) := by
  rw [← Equiv.sum_comp (idxEquiv5 (n0 := n0) (n1 := n1) (n2 := n2) (n3 := n3) (n4 := n4)).symm f]
  simp only [Fintype.sum_prod_type]
  rfl

/-! ## A sum over the three voxel axes of a rank-5 array, kept per (batch, class) -/

section VoxelSum

open Cert.ReferenceIdeal

/-- Dropping the voxel coordinates of (b, c, h, w, d) leaves (b, c). -/
theorem drop234_ix5 (hr : S2x8x128x128x128.ReducesTo [2, 3, 4] S2x8) (b : Fin 2) (c : Fin 8) (h w d : Fin 128) :
    hr.drop (ix5 b c h w d) = ix2 b c := by
  funext a
  match a with
  | ⟨0, _⟩ => exact Fin.ext rfl
  | ⟨1, _⟩ => exact Fin.ext rfl

theorem ix2_eq_iff {n0 n1 : Nat} (a a' : Fin n0) (b b' : Fin n1) : ix2 a b = ix2 a' b' ↔ a = a' ∧ b = b' := by
  constructor
  · intro e
    have h0 : ix2 a b (0 : Fin 2) = ix2 a' b' (0 : Fin 2) := congrFun e _
    have h1 : ix2 a b (1 : Fin 2) = ix2 a' b' (1 : Fin 2) := congrFun e _
    exact ⟨h0, h1⟩
  · rintro ⟨rfl, rfl⟩; rfl

/-- The exact sum over the axes [2, 3, 4] into [2, 8], read at (b, c): the initial value plus the threefold sum over the
    voxel coordinates. -/
theorem hostReduceAdd_234 (hr : S2x8x128x128x128.ReducesTo [2, 3, 4] S2x8) (x : S2x8x128x128x128.Idx → EReal) (init : EReal)
    (b : Fin 2) (c : Fin 8) :
    Ideal.hostReduceAdd hr x init (ix2 b c) = init + ∑ h : Fin 128, ∑ w : Fin 128, ∑ d : Fin 128, x (ix5 b c h w d) := by
  unfold Ideal.hostReduceAdd
  congr 1
  rw [Finset.sum_filter, sum_idx5]
  simp only [drop234_ix5, ix2_eq_iff]
  rw [Finset.sum_eq_single b (fun b' _ hb' => ?_) (fun hb => absurd (Finset.mem_univ b) hb)]
  · rw [Finset.sum_eq_single c (fun c' _ hc' => ?_) (fun hc => absurd (Finset.mem_univ c) hc)]
    · refine Finset.sum_congr rfl fun h _ => Finset.sum_congr rfl fun w _ => Finset.sum_congr rfl fun d _ => ?_
      rw [if_pos ⟨rfl, rfl⟩]
    · refine Finset.sum_eq_zero fun h _ => Finset.sum_eq_zero fun w _ => Finset.sum_eq_zero fun d _ => ?_
      rw [if_neg fun e => hc' e.2]
  · refine Finset.sum_eq_zero fun c' _ => Finset.sum_eq_zero fun h _ => Finset.sum_eq_zero fun w _ =>
      Finset.sum_eq_zero fun d _ => ?_
    rw [if_neg fun e => hb' e.1]

end VoxelSum

/-! ## The words of the cross-entropy divisors, and the law that merges the two divisions -/

theorem ofBits_4194304 : Ideal.ofBits .f32 0x4A800000#32 = ((4194304 : ℝ) : EReal) := by
  simp [Ideal.ofBits, Ideal.ieee, -EReal.coe_mul] <;> norm_num

theorem ofBits_two : Ideal.ofBits .f32 0x40000000#32 = ((2 : ℝ) : EReal) := by
  simp [Ideal.ofBits, Ideal.ieee, -EReal.coe_mul] <;> norm_num

theorem ofBits_8388608 : Ideal.ofBits .f32 0x4B000000#32 = ((8388608 : ℝ) : EReal) := by
  simp [Ideal.ofBits, Ideal.ieee, -EReal.coe_mul] <;> norm_num

/-- Dividing by 4194304, negating and dividing by 2 is negating and dividing by 8388608, for every extended real. -/
theorem div_neg_div (x : EReal) :
    Ideal.div (-(Ideal.div x (Ideal.ofBits .f32 0x4A800000#32))) (Ideal.ofBits .f32 0x40000000#32)
      = Ideal.div (-x) (Ideal.ofBits .f32 0x4B000000#32) := by
  rw [ofBits_4194304, ofBits_two, ofBits_8388608, Ideal.div_coe (by norm_num), Ideal.div_coe (by norm_num),
    Ideal.div_coe (by norm_num), ← EReal.neg_mul, mul_assoc, ← EReal.coe_mul]
  congr 2
  norm_num

/-! ## Words: labels below 8, one-bit conditions -/

theorem slt_zero_of_lt8 (k : Fin 8) : IntOp.cmpi .slt (BitVec.ofNat 32 k.val) 0#32 = 0#1 := by
  revert k; decide

theorem sge_zero_of_lt8 (k : Fin 8) : IntOp.cmpi .sge (BitVec.ofNat 32 k.val) 0#32 = 1#1 := by
  revert k; decide

theorem sle_seven_of_lt8 (k : Fin 8) : IntOp.cmpi .sle (BitVec.ofNat 32 k.val) 7#32 = 1#1 := by
  revert k; decide

/-- A label below 8, read signed and clamped into [0, 7], is itself. -/
theorem clamp_of_lt8 (k : Fin 8) : min (BitVec.ofNat 32 k.val).toInt.toNat (8 - 1) = k.val := by
  revert k; decide

theorem ofNat_inj8 (k c : Fin 8) : BitVec.ofNat 32 k.val = BitVec.ofNat 32 c.val ↔ k = c := by
  revert k c; decide

/-- The one-bit equality test converted to a float is 1 where the words agree and 0 elsewhere. -/
theorem uitofp_cmpi_eq (a b : BitVec 32) : (((IntOp.cmpi .eq a b).toNat : ℝ) : EReal) = if a = b then 1 else 0 := by
  by_cases h : a = b
  · subst h; simp [IntOp.cmpi]
  · simp [IntOp.cmpi, h]

/-- A conjunction over any set of one-bit words that are all 1, started at 1, is 1. -/
theorem fold_andi_one {ι : Type} (S : Finset ι) (x : ι → BitVec 1) (hx : ∀ i, x i = 1#1) :
    S.fold IntOp.andi 1#1 x = 1#1 := by
  induction S using Finset.cons_induction with
  | empty => rfl
  | cons a S ha ih => rw [Finset.fold_cons, ih, hx a]; decide

/-! ## The gather along the class axis, read at an index -/

section Gather

open Cert.ReferenceIdeal Cert.ReferenceIdeal.Gen

/-- The gather's dimension numbers: operand [2, 8, 128, 128, 128], start indices [2, 1, 128, 128, 128, 1], the class axis
    collapsed and indexed, the four other axes batching. -/
abbrev G : GatherDims S2x8x128x128x128 S2x1x128x128x128x1 S2x1x128x128x128 :=
  gather_S2x8x128x128x128_S2x1x128x128x128x1_S2x1x128x128x128_n_1_0234_0234_1_5_11111

/-- On a batching axis the operand coordinate is the result's batch coordinate alone. -/
theorem gather_coord_batching (idx : IVec S2x1x128x128x128x1 32) (j : S2x1x128x128x128.Idx) (a : Fin 5)
    (ha : a ∈ G.operandBatchingDims) (hs : a ∉ G.sKept) :
    G.start j idx a + G.batchCoord j a + G.offCoord j a = G.batchCoord j a := by
  rw [GatherDims.start_batching _ _ _ _ ha, GatherDims.offCoord_eq_zero _ _ _ hs, Nat.zero_add, Nat.add_zero]

/-- Result element (b, 0, h, w, d) reads the operand at (b, k, h, w, d), where k is the start index at (b, 0, h, w, d, 0),
    when that is a class below 8 (the clamp into [0, 7] leaves it). -/
theorem gather_idx (idx : IVec S2x1x128x128x128x1 32) (b : Fin 2) (h w d : Fin 128) (k : Fin 8)
    (hk : idx (ix6 b (0 : Fin 1) h w d (0 : Fin 1)) = BitVec.ofNat 32 k.val) :
    G.operandIdx (ix5 b (0 : Fin 1) h w d) idx = ix5 b k h w d := by
  funext a
  refine Fin.ext ?_
  show G.start (ix5 b (0 : Fin 1) h w d) idx a + G.batchCoord (ix5 b (0 : Fin 1) h w d) a
    + G.offCoord (ix5 b (0 : Fin 1) h w d) a = _
  match a with
  | ⟨0, _⟩ =>
    exact (gather_coord_batching idx _ (⟨0, by decide⟩ : Fin 5) (by decide) (by decide)).trans rfl
  | ⟨1, _⟩ =>
    show G.start (ix5 b (0 : Fin 1) h w d) idx (⟨1, by decide⟩ : Fin 5)
      + G.batchCoord (ix5 b (0 : Fin 1) h w d) (⟨1, by decide⟩ : Fin 5)
      + G.offCoord (ix5 b (0 : Fin 1) h w d) (⟨1, by decide⟩ : Fin 5) = k.val
    rw [GatherDims.batchCoord_eq_zero _ _ _ (by decide), GatherDims.offCoord_eq_zero _ _ _ (by decide)]
    unfold GatherDims.start
    rw [dif_pos (show (⟨1, by decide⟩ : Fin 5) ∈ G.startIndexMap from List.mem_singleton.mpr rfl)]
    have hsi : G.siIdx (ix5 b (0 : Fin 1) h w d) ⟨List.idxOf (⟨1, by decide⟩ : Fin 5) G.startIndexMap,
        List.idxOf_lt_length_iff.2 (List.mem_singleton.mpr rfl)⟩ = ix6 b (0 : Fin 1) h w d (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
      | ⟨5, _⟩ => rfl
    rw [hsi, hk]
    exact clamp_of_lt8 k
  | ⟨2, _⟩ =>
    exact (gather_coord_batching idx _ (⟨2, by decide⟩ : Fin 5) (by decide) (by decide)).trans rfl
  | ⟨3, _⟩ =>
    exact (gather_coord_batching idx _ (⟨3, by decide⟩ : Fin 5) (by decide) (by decide)).trans rfl
  | ⟨4, _⟩ =>
    exact (gather_coord_batching idx _ (⟨4, by decide⟩ : Fin 5) (by decide) (by decide)).trans rfl

end Gather

/-! ## The reference program read at an index -/

section Program

open Cert.ReferenceIdeal Cert.ReferenceIdeal.Gen Cert.ReferenceIdeal.Read

variable (P : FVec Ideal S2x8x128x128x128 .f32) (Tg : IVec S2x1x128x128x128 32)

/-! ### Flat positions back to coordinates -/

/-- The label array with its unit class axis dropped and put back, then repeated along the class axis, reads at
    (b, c, h, w, d) the label at (b, 0, h, w, d). -/
theorem idx_lab (b : Fin 2) (c : Fin 8) (h w d : Fin 128) :
    idx_main_v0 (idx_main_v14 (idx_main_v17 (ix5 b c h w d))) = ix5 b (0 : Fin 1) h w d := by
  have hb := b.isLt; have hh := h.isLt; have hw := w.isLt; have hd := d.isLt
  funext a
  match a with
  | ⟨0, _⟩ => exact Fin.ext (by show (((b.val * 128 + h.val) * 128 + w.val) * 128 + d.val) / 2097152 = b.val; omega)
  | ⟨1, _⟩ => exact Fin.ext rfl
  | ⟨2, _⟩ => exact Fin.ext (by show (((b.val * 128 + h.val) * 128 + w.val) * 128 + d.val) / 16384 % 128 = h.val; omega)
  | ⟨3, _⟩ => exact Fin.ext (by show (((b.val * 128 + h.val) * 128 + w.val) * 128 + d.val) / 128 % 128 = w.val; omega)
  | ⟨4, _⟩ => exact Fin.ext (by show (((b.val * 128 + h.val) * 128 + w.val) * 128 + d.val) % 128 = d.val; omega)

/-- The same round trip without the class axis: at (b, 0, h, w, d) it reads the label there. -/
theorem idx_lab0 (b : Fin 2) (h w d : Fin 128) :
    idx_main_v0 (idx_main_v7 (ix5 b (0 : Fin 1) h w d)) = ix5 b (0 : Fin 1) h w d := by
  have hb := b.isLt; have hh := h.isLt; have hw := w.isLt; have hd := d.isLt
  funext a
  match a with
  | ⟨0, _⟩ => exact Fin.ext (by show (((b.val * 128 + h.val) * 128 + w.val) * 128 + d.val) / 2097152 = b.val; omega)
  | ⟨1, _⟩ => exact Fin.ext rfl
  | ⟨2, _⟩ => exact Fin.ext (by show (((b.val * 128 + h.val) * 128 + w.val) * 128 + d.val) / 16384 % 128 = h.val; omega)
  | ⟨3, _⟩ => exact Fin.ext (by show (((b.val * 128 + h.val) * 128 + w.val) * 128 + d.val) / 128 % 128 = w.val; omega)
  | ⟨4, _⟩ => exact Fin.ext (by show (((b.val * 128 + h.val) * 128 + w.val) * 128 + d.val) % 128 = d.val; omega)

/-- Dropping the unit class axis of the picked values: (b, h, w, d) reads (b, 0, h, w, d). -/
theorem idx_pick (b : Fin 2) (h w d : Fin 128) : idx_main_v9 (ix4 b h w d) = ix5 b (0 : Fin 1) h w d := by
  have hb := b.isLt; have hh := h.isLt; have hw := w.isLt; have hd := d.isLt
  funext a
  match a with
  | ⟨0, _⟩ => exact Fin.ext (by show (((b.val * 128 + h.val) * 128 + w.val) * 128 + d.val) / 2097152 = b.val; omega)
  | ⟨1, _⟩ => exact Fin.ext rfl
  | ⟨2, _⟩ => exact Fin.ext (by show (((b.val * 128 + h.val) * 128 + w.val) * 128 + d.val) / 16384 % 128 = h.val; omega)
  | ⟨3, _⟩ => exact Fin.ext (by show (((b.val * 128 + h.val) * 128 + w.val) * 128 + d.val) / 128 % 128 = w.val; omega)
  | ⟨4, _⟩ => exact Fin.ext (by show (((b.val * 128 + h.val) * 128 + w.val) * 128 + d.val) % 128 = d.val; omega)

/-! ### The one-hot array and the three dice sums -/

/-- The labels repeated along the class axis. -/
theorem lab_at (b : Fin 2) (c : Fin 8) (h w d : Fin 128) :
    val_main_v17 (F := Ideal) Tg (ix5 b c h w d) = Tg (ix5 b (0 : Fin 1) h w d) := by
  rw [val_main_v17_apply, val_main_v14_apply, val_main_v0_apply, idx_lab]

/-- The class numbers repeated along every other axis. -/
theorem iota_at (b : Fin 2) (c : Fin 8) (h w d : Fin 128) :
    val_main_v18 (F := Ideal) (ix5 b c h w d) = BitVec.ofNat 32 c.val := by
  rw [val_main_v18_apply, val_main_v16_apply]
  exact val_main_v15_apply _

/-- The converted comparison is the one-hot entry. -/
theorem hot_at (b : Fin 2) (c : Fin 8) (h w d : Fin 128) :
    val_main_v20 (F := Ideal) Tg (ix5 b c h w d) = DiceCE.hot Tg b c h w d := by
  rw [val_main_v20_apply, val_main_v19_apply, lab_at, iota_at]
  unfold DiceCE.hot
  exact uitofp_cmpi_eq _ _

theorem inter_at (b : Fin 2) (c : Fin 8) : val_main_v22 (F := Ideal) P Tg (ix2 b c) = DiceCE.inter P Tg b c := by
  unfold val_main_v22 DiceCE.inter
  simp only [Host.reduceAdd, Ideal.hostReduceAdd_def]
  rw [hostReduceAdd_234, val_main_cst_4_apply, Ideal.ofBits_def, Ideal.ofBits_zero_f32, zero_add]
  refine Finset.sum_congr rfl fun h _ => Finset.sum_congr rfl fun w _ => Finset.sum_congr rfl fun d _ => ?_
  rw [val_main_v21_apply, hot_at]
  rfl

theorem ground_at (b : Fin 2) (c : Fin 8) : val_main_v23 (F := Ideal) Tg (ix2 b c) = DiceCE.ground Tg b c := by
  unfold val_main_v23 DiceCE.ground
  simp only [Host.reduceAdd, Ideal.hostReduceAdd_def]
  rw [hostReduceAdd_234, val_main_cst_5_apply, Ideal.ofBits_def, Ideal.ofBits_zero_f32, zero_add]
  refine Finset.sum_congr rfl fun h _ => Finset.sum_congr rfl fun w _ => Finset.sum_congr rfl fun d _ => ?_
  exact hot_at Tg b c h w d

theorem pred_at (b : Fin 2) (c : Fin 8) : val_main_v24 (F := Ideal) P (ix2 b c) = DiceCE.predSum P b c := by
  unfold val_main_v24 DiceCE.predSum
  simp only [Host.reduceAdd, Ideal.hostReduceAdd_def]
  rw [hostReduceAdd_234, val_main_cst_6_apply, Ideal.ofBits_def, Ideal.ofBits_zero_f32, zero_add]

/-- The dice term of one (batch, class) pair. -/
theorem dice_at (b : Fin 2) (c : Fin 8) : val_main_v34 (F := Ideal) P Tg (ix2 b c) = DiceCE.diceTerm P Tg b c := by
  rw [val_main_v34_apply, val_main_v33_apply, val_main_cst_10_apply, val_main_v32_apply, val_main_v28_apply,
    val_main_v26_apply, val_main_v25_apply, val_main_cst_7_apply, val_main_v27_apply, val_main_cst_8_apply,
    val_main_v31_apply, val_main_v29_apply, val_main_v30_apply, val_main_cst_9_apply, inter_at, ground_at, pred_at]
  rfl

/-! ### The labels as gather indices, under the label range -/

theorem v7_at (k : S2x1x128x128x128.Idx) :
    val_main_v7 (F := Ideal) Tg k = Tg (idx_main_v0 (idx_main_v7 k)) := by
  rw [val_main_v7_apply, val_main_v0_apply]

theorem v7_lt8 (hlab : DiceCE.LabelsInRange Tg) (k : S2x1x128x128x128.Idx) :
    ∃ m : Fin 8, val_main_v7 (F := Ideal) Tg k = BitVec.ofNat 32 m.val := by
  rw [v7_at]; exact hlab _

/-- No label is negative, so the wrap of negative indices leaves every label as it is. -/
theorem call0_v4_eq (hlab : DiceCE.LabelsInRange Tg) (k : S2x1x128x128x128.Idx) :
    val_main_call0_v4 (F := Ideal) Tg k = val_main_v7 (F := Ideal) Tg k := by
  obtain ⟨m, hm⟩ := v7_lt8 Tg hlab k
  rw [val_main_call0_v4_apply, val_main_call0_v1_apply, hm, val_main_call0_v0_apply, val_main_call0_c_apply,
    slt_zero_of_lt8, select_zero]

/-- Every start index is a class below 8. -/
theorem call0_v5_lt8 (hlab : DiceCE.LabelsInRange Tg) (i : S2x1x128x128x128x1.Idx) :
    ∃ m : Fin 8, val_main_call0_v5 (F := Ideal) Tg i = BitVec.ofNat 32 m.val := by
  obtain ⟨k, hk⟩ : ∃ k, val_main_call0_v5 (F := Ideal) Tg i = val_main_call0_v4 (F := Ideal) Tg k := ⟨_, rfl⟩
  rw [hk, call0_v4_eq Tg hlab]
  exact v7_lt8 Tg hlab k

/-- So the in-range mask (0 ≤ index and index ≤ 7) is 1 everywhere … -/
theorem mask_one (hlab : DiceCE.LabelsInRange Tg) (i : S2x1x128x128x128x1.Idx) :
    val_main_call0_v11 (F := Ideal) Tg i = 1#1 := by
  obtain ⟨m, hm⟩ := call0_v5_lt8 Tg hlab i
  rw [val_main_call0_v11_apply, val_main_call0_v7_apply, val_main_call0_v10_apply, hm, val_main_call0_v6_apply,
    val_main_call0_c_2_apply, val_main_call0_v9_apply, val_main_call0_v8_apply, val_main_call0_c_1_apply,
    sge_zero_of_lt8, sle_seven_of_lt8]
  decide

/-- … and so is its conjunction over the unit axis. -/
theorem call0_v12_one (hlab : DiceCE.LabelsInRange Tg) (k : S2x1x128x128x128.Idx) :
    val_main_call0_v12 (F := Ideal) Tg k = 1#1 := by
  unfold val_main_call0_v12
  rw [Host.reduce_eq_fold, val_main_call0_c_3_apply]
  exact fold_andi_one _ _ (mask_one Tg hlab)

/-- The start index at (b, 0, h, w, d, 0) is the label at (b, 0, h, w, d). -/
theorem call0_v5_at (hlab : DiceCE.LabelsInRange Tg) (b : Fin 2) (h w d : Fin 128) :
    val_main_call0_v5 (F := Ideal) Tg (ix6 b (0 : Fin 1) h w d (0 : Fin 1)) = Tg (ix5 b (0 : Fin 1) h w d) := by
  have e : val_main_call0_v5 (F := Ideal) Tg (ix6 b (0 : Fin 1) h w d (0 : Fin 1))
      = val_main_call0_v4 (F := Ideal) Tg (ix5 b (0 : Fin 1) h w d) := by
    unfold val_main_call0_v5
    exact shapeCast_apply _ shapeCasts_S2x1x128x128x128_S2x1x128x128x128x1 _ _
      (by
        rewrite [Shape.rowMajor_val_five, Shape.rowMajor_val_six]
        show (((b.val * 1 + 0) * 128 + h.val) * 128 + w.val) * 128 + d.val
          = ((((b.val * 1 + 0) * 128 + h.val) * 128 + w.val) * 128 + d.val) * 1 + 0
        omega)
  rw [e, call0_v4_eq Tg hlab, v7_at, idx_lab0]

/-! ### The batch sums of the log-probabilities, and the picked value -/

/-- The batch sum broadcast back over the batch axis reads, at any batch entry, the batch sum. -/
theorem v6_at (b : Fin 2) (c : Fin 8) (h w d : Fin 128) :
    val_main_v6 (F := Ideal) P (ix5 b c h w d) = DiceCE.logpSum P c h w d := by
  rw [val_main_v6_apply, val_main_v5_apply, val_main_v4_apply, val_main_cst_0_apply, Ideal.ofBits_def,
    Ideal.ofBits_zero_f32, zero_add]
  unfold DiceCE.logpSum
  refine Finset.sum_congr rfl fun k _ => ?_
  have hi : idx_main_v4 (idx_main_v5 (idx_main_v6 (ix5 b c h w d))) k = ix5 k c h w d := by
    funext a
    match a with
    | ⟨0, _⟩ => rfl
    | ⟨1, _⟩ => rfl
    | ⟨2, _⟩ => rfl
    | ⟨3, _⟩ => rfl
    | ⟨4, _⟩ => rfl
  rw [hi, val_main_v3_apply, val_main_v2_apply, val_main_v1_apply, val_main_cst_apply]
  rfl

/-- Under the label range the guarded gather at (b, 0, h, w, d) is the batch sum at the voxel's label. -/
theorem v8_at (hlab : DiceCE.LabelsInRange Tg) (b : Fin 2) (h w d : Fin 128) (k : Fin 8)
    (hk : Tg (ix5 b (0 : Fin 1) h w d) = BitVec.ofNat 32 k.val) :
    val_main_v8 (F := Ideal) P Tg (ix5 b (0 : Fin 1) h w d) = DiceCE.logpSum P k h w d := by
  rw [val_main_v8_apply, call0_v12_one Tg hlab, select_one]
  unfold val_main_call0_v13 Host.gather
  rw [gather_idx (val_main_call0_v5 (F := Ideal) Tg) b h w d k ((call0_v5_at Tg hlab b h w d).trans hk), v6_at]

/-- The one-hot sum over the classes collapses to the term of the voxel's label: 1 · x = x and 0 · x = 0 for every
    extended real x. -/
theorem picked_eq (b : Fin 2) (h w d : Fin 128) (k : Fin 8)
    (hk : Tg (ix5 b (0 : Fin 1) h w d) = BitVec.ofNat 32 k.val) :
    DiceCE.picked P Tg b h w d = DiceCE.logpSum P k h w d := by
  unfold DiceCE.picked
  rw [Finset.sum_eq_single k]
  · unfold DiceCE.hot
    rw [if_pos hk, one_mul]
  · intro c _ hc
    unfold DiceCE.hot
    rw [if_neg (fun e => hc ((ofNat_inj8 k c).mp (hk.symm.trans e)).symm), zero_mul]
  · intro hk'
    exact absurd (Finset.mem_univ k) hk'

/-- The sum of the picked values over every batch entry and voxel. -/
theorem ce_sum (hlab : DiceCE.LabelsInRange Tg) :
    ∑ j : S2x128x128x128.Idx, val_main_v9 (F := Ideal) P Tg j = DiceCE.ceSum P Tg := by
  rw [sum_idx4]
  unfold DiceCE.ceSum
  refine Finset.sum_congr rfl fun b _ => Finset.sum_congr rfl fun h _ => Finset.sum_congr rfl fun w _ =>
    Finset.sum_congr rfl fun d _ => ?_
  obtain ⟨k, hk⟩ := hlab (ix5 b (0 : Fin 1) h w d)
  rw [val_main_v9_apply, idx_pick, v8_at P Tg hlab b h w d k hk, picked_eq P Tg b h w d k hk]

end Program

/-! ## The result -/

section Result

open Cert.ReferenceIdeal Cert.ReferenceIdeal.Gen Cert.ReferenceIdeal.Read

/-- The reference's result is the specified loss. -/
theorem result_eq (P : FVec Ideal Cert.ReferenceIdeal.S2x8x128x128x128 .f32) (Tg : IVec Cert.ReferenceIdeal.S2x1x128x128x128 32)
    (hlab : Cert.DiceCE.LabelsInRange Tg) :
    Cert.ReferenceIdeal.Read.val_main_v39 (F := Ideal) P Tg = fun _ => Cert.DiceCE.loss P Tg := by
  funext i
  rw [val_main_v39_apply, val_main_v37_apply, val_main_v38_apply, val_main_cst_13_apply, val_main_cst_14_apply,
    val_main_v13_apply, val_main_v12_apply, val_main_v11_apply, val_main_v10_apply, val_main_cst_1_apply,
    val_main_cst_2_apply, val_main_cst_3_apply, val_main_v36_apply, val_main_v35_apply, val_main_cst_11_apply,
    val_main_cst_12_apply, ce_sum P Tg hlab, sum_idx2]
  simp only [dice_at]
  simp only [Ideal.ofBits_def, Ideal.addf_def, Ideal.mulf_def, Ideal.hostDivf_def, Ideal.hostNegf_def, Ideal.negf_def,
    Ideal.ofBits_zero_f32, zero_add]
  rw [div_neg_div]
  rfl

end Result

end Cert.RefLoss

end
-- ==== Proof.LabelRange.lean ====
/-
  The labels' range, read back from the stated precondition.

  The precondition's last conjunct is "every label t satisfies 0 ≤ t and t < 8", both comparisons signed, taken over the whole
  label array. A 32-bit word that is ≥ 0 and < 8 as a signed integer has an unsigned value below 8, so it is the word of one of
  the eight classes 0, …, 7.
-/
import proofs.«424769_j9423158247527_4_alg».proof.Pre_finite_inputs
import proofs.«424769_j9423158247527_4_alg».proof.Proof.LossSpec
import Idealize.ShloMosaic.Lib.ReduceAll
import Idealize.ShloMosaic.Lib.StableHlo.Predicate
import Idealize.ShloMosaic.Lib.ValueIdx

namespace Cert.LabelRange

open Idealize.ShloMosaic Idealize.ShloMosaic.ValueIdx

/-- The scalar shape has a single index. -/
instance : Subsingleton Cert.Pre_finite_inputs.S_.Idx := ⟨fun a b => funext fun d => d.elim0⟩

/-- A 32-bit word w with 0 ≤ w and w < 8, both read signed, is the word of some k in 0, …, 7: a nonnegative signed reading
    is the unsigned reading, so the unsigned value is below 8. -/
theorem word_of_range (w : BitVec 32) (h0 : IntOp.cmpi .sge w 0#32 = 1#1) (h8 : IntOp.cmpi .slt w 8#32 = 1#1) :
    ∃ k : Fin 8, w = BitVec.ofNat 32 k.val := by
  rw [IntOp.cmpi_sge] at h0
  rw [IntOp.cmpi_slt] at h8
  have e0 : (0#32 : BitVec 32).toInt = 0 := by decide
  have e8 : (8#32 : BitVec 32).toInt = 8 := by decide
  rw [e0] at h0
  rw [e8] at h8
  have hlt := w.isLt
  have hn : w.toNat < 8 := by
    rw [BitVec.toInt_eq_toNat_cond] at h0 h8
    split at h0 <;> omega
  exact ⟨⟨w.toNat, hn⟩, by simp⟩

/-- The precondition gives every label in range. -/
theorem of_pre {F : FTy → Type} [FloatOps F] [Cert.Pre_finite_inputs.Facts] (P : FVec F Cert.Pre_finite_inputs.S2x8x128x128x128 .f32) (Tg : IVec Cert.Pre_finite_inputs.S2x1x128x128x128 32)
    (h : Cert.Pre_finite_inputs.fn (F := F) P Tg = fun _ => 1#1) : Cert.DiceCE.LabelsInRange Tg := by
  intro i
  have e := congrFun h ix0
  dsimp only [Cert.Pre_finite_inputs.fn] at e
  -- the conjunction of the two "all" reductions: keep the one over the labels
  obtain ⟨-, e9⟩ := IntOp.andi_eq_one.1 e
  -- every element of the reduced array is 1; at i it is the conjunction of the two comparisons
  have ei := Host.reduce_andi_all _ _ _ _ _ e9 i
  obtain ⟨h0, h8⟩ := IntOp.andi_eq_one.1 ei
  exact word_of_range (Tg i) h0 h8

end Cert.LabelRange
-- ==== Proof.lean ====
/-
  The certificate's claim, assembled.

  Both idealized programs compute one function of the two argument arrays, the cross-entropy plus dice loss of the
  specification: the kernel program for every input, the reference for labels in the eight classes, which the stated
  precondition gives. From memories that agree on the arguments the two results are therefore the same extended real.
  Each program's run also leaves its arguments unchanged, which is its frame; the idealized kernel is the kernel's own text
  read on the extended reals, so nothing is to be shown for it beyond that.
-/
import proofs.«424769_j9423158247527_4_alg».proof.Defs
import proofs.«424769_j9423158247527_4_alg».proof.Proof.Gen.Kernel
import proofs.«424769_j9423158247527_4_alg».proof.Proof.Gen.Kernel.Skeleton
import proofs.«424769_j9423158247527_4_alg».proof.Proof.Gen.Kernel.Launch
import proofs.«424769_j9423158247527_4_alg».proof.Proof.Gen.Kernel.Points
import proofs.«424769_j9423158247527_4_alg».proof.Proof.Gen.Kernel.Frame
import proofs.«424769_j9423158247527_4_alg».proof.Proof.Gen.KernelIdeal
import proofs.«424769_j9423158247527_4_alg».proof.Proof.Gen.KernelIdeal.Skeleton
import proofs.«424769_j9423158247527_4_alg».proof.Proof.Gen.KernelIdeal.Launch
import proofs.«424769_j9423158247527_4_alg».proof.Proof.Gen.KernelIdeal.Points
import proofs.«424769_j9423158247527_4_alg».proof.Proof.Gen.KernelIdeal.Frame
import proofs.«424769_j9423158247527_4_alg».proof.Proof.Gen.ReferenceIdeal
import proofs.«424769_j9423158247527_4_alg».proof.Proof.Gen.Pre_finite_inputs
import proofs.«424769_j9423158247527_4_alg».proof.Proof.KernelLoss
import proofs.«424769_j9423158247527_4_alg».proof.Proof.RefRead
import proofs.«424769_j9423158247527_4_alg».proof.Proof.RefLoss
import proofs.«424769_j9423158247527_4_alg».proof.Proof.LabelRange
import Idealize.ShloMosaic.Adequacy
import Idealize.ShloMosaic.Init

noncomputable section

namespace Cert.Proof

open Idealize.ShloMosaic Idealize.ShloMosaic.TcCoe Idealize.SL.Sem Cert.Kernel

/-- From memories agreeing on the arguments, under the precondition, both idealized programs end with the loss of the
    kernel's argument arrays: the kernel program by its run, the reference by its run read one operation at a time, its
    labels in range by the precondition. -/
theorem algebraic : Cert.algebraic_KernelIdeal_ReferenceIdeal := by
  intro m ρ m' ρ' hpre hagree
  refine ⟨fun c => fun _ => Cert.DiceCE.loss
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, (hagree c).1, (hagree c).2]
  exact Cert.RefLoss.result_eq _ _ (Cert.LabelRange.of_pre _ _ (hpre c))

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
